-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x64x512 : Shape := ⟨4, ![16, 64, 64, 512]⟩
abbrev S512x64 : Shape := ⟨2, ![512, 64]⟩
abbrev S64 : Shape := ⟨1, ![64]⟩
abbrev S1x1x1x64x64 : Shape := ⟨5, ![1, 1, 1, 64, 64]⟩
abbrev S_ : Shape := ⟨0, ![]⟩

class Facts : Prop where
  bcast_S_S16x64x64x512 : S_.BroadcastsInDim S16x64x64x512 (![] : Fin 0 → Fin S16x64x64x512.rank)
  reducesTo_S16x64x64x512_S_d0_1_2_3 : S16x64x64x512.ReducesTo [0, 1, 2, 3] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S1x1x1x64x64 : S_.BroadcastsInDim S1x1x1x64x64 (![] : Fin 0 → Fin S1x1x1x64x64.rank)
  reducesTo_S1x1x1x64x64_S_d0_1_2_3_4 : S1x1x1x64x64.ReducesTo [0, 1, 2, 3, 4] S_

variable [Facts]

def fn_part1 {F : FTy → Type} [FloatOps F] (main_v13 : IVec S_ 1) (main_v16 : IVec S1x1x1x64x64 1) : IVec S_ 1 :=
  let main_c_5 : IVec S_ 1 := constantI S_ 1 1#1
  let main_v17 : IVec S_ 1 := (fun x v => Host.reduce IntOp.andi x v reducesTo_S1x1x1x64x64_S_d0_1_2_3_4 h_S_) main_v16 main_c_5
  let main_v18 : IVec S_ 1 := andi main_v13 main_v17
  main_v18

def fn {F : FTy → Type} [FloatOps F] (main_arg0 : FVec F S16x64x64x512 .f32) (main_arg1 : FVec F S512x64 .f32) (main_arg2 : FVec F S64 .f32) (main_arg3 : FVec F S1x1x1x64x64 .f32) : IVec S_ 1 :=
  let main_v0 : FVec F S16x64x64x512 .f32 := Host.absf main_arg0
  let main_cst : FVec F S_ .f32 := constant S_ .f32 0x7F800000#32
  let main_v1 : FVec F S16x64x64x512 .f32 := broadcastInDim S16x64x64x512 ![] bcast_S_S16x64x64x512 main_cst
  let main_v2 : IVec S16x64x64x512 1 := cmpf .olt main_v0 main_v1
  let main_c : IVec S_ 1 := constantI S_ 1 1#1
  let main_v3 : IVec S_ 1 := (fun x v => Host.reduce IntOp.andi x v reducesTo_S16x64x64x512_S_d0_1_2_3 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S1x1x1x64x64 .f32 := Host.absf main_arg3
  let main_cst_4 : FVec F S_ .f32 := constant S_ .f32 0x7F800000#32
  let main_v15 : FVec F S1x1x1x64x64 .f32 := broadcastInDim S1x1x1x64x64 ![] bcast_S_S1x1x1x64x64 main_cst_4
  let main_v16 : IVec S1x1x1x64x64 1 := cmpf .olt main_v14 main_v15
  fn_part1 (F := F) main_v13 main_v16
-- ==== Kernel.lean ====
abbrev S16x64x64x512 : Shape := ⟨4, ![16, 64, 64, 512]⟩
abbrev S512x64 : Shape := ⟨2, ![512, 64]⟩
abbrev S64 : Shape := ⟨1, ![64]⟩
abbrev S1x1x1x64x64 : Shape := ⟨5, ![1, 1, 1, 64, 64]⟩
abbrev S1x64 : Shape := ⟨2, ![1, 64]⟩
abbrev S64x64 : Shape := ⟨2, ![64, 64]⟩
abbrev S8x2x4096 : Shape := ⟨3, ![8, 2, 4096]⟩
abbrev S2x64x64x512 : Shape := ⟨4, ![2, 64, 64, 512]⟩
abbrev S1x2x4096 : Shape := ⟨3, ![1, 2, 4096]⟩
abbrev S1x64x64x512 : Shape := ⟨4, ![1, 64, 64, 512]⟩
abbrev S64x64x512 : Shape := ⟨3, ![64, 64, 512]⟩
abbrev S4096x512 : Shape := ⟨2, ![4096, 512]⟩
abbrev S4096x64 : Shape := ⟨2, ![4096, 64]⟩
abbrev S4096 : Shape := ⟨1, ![4096]⟩
abbrev S4096x1 : Shape := ⟨2, ![4096, 1]⟩
abbrev S64x1 : Shape := ⟨2, ![64, 1]⟩
abbrev S1x4096 : Shape := ⟨2, ![1, 4096]⟩
abbrev S1 : Shape := ⟨1, ![1]⟩
abbrev S1x1 : Shape := ⟨2, ![1, 1]⟩
abbrev S1x1x4096 : Shape := ⟨3, ![1, 1, 4096]⟩
abbrev S16x4096 : Shape := ⟨2, ![16, 4096]⟩

abbrev nBuf : Space → Nat
  | .hbm => 9
  | .vmem => 7
  | .smem => 0
  | _ => 0

abbrev bufTy : (tb : Table) → Fin (tcTables nBuf tb) → BufTy
  | .hbm, ⟨0, _⟩ => ⟨S16x64x64x512, .f32⟩
  | .hbm, ⟨1, _⟩ => ⟨S512x64, .f32⟩
  | .hbm, ⟨2, _⟩ => ⟨S64, .f32⟩
  | .hbm, ⟨3, _⟩ => ⟨S1x1x1x64x64, .f32⟩
  | .hbm, ⟨4, _⟩ => ⟨S1x64, .f32⟩
  | .hbm, ⟨5, _⟩ => ⟨S64x64, .f32⟩
  | .hbm, ⟨6, _⟩ => ⟨S64x64, .f32⟩
  | .hbm, ⟨7, _⟩ => ⟨S8x2x4096, .f32⟩
  | .hbm, ⟨8, _⟩ => ⟨S16x4096, .f32⟩
  | .local _ .vmem, ⟨0, _⟩ => ⟨S2x64x64x512, .f32⟩
  | .local _ .vmem, ⟨1, _⟩ => ⟨S2x64x64x512, .f32⟩
  | .local _ .vmem, ⟨2, _⟩ => ⟨S512x64, .f32⟩
  | .local _ .vmem, ⟨3, _⟩ => ⟨S1x64, .f32⟩
  | .local _ .vmem, ⟨4, _⟩ => ⟨S64x64, .f32⟩
  | .local _ .vmem, ⟨5, _⟩ => ⟨S1x2x4096, .f32⟩
  | .local _ .vmem, ⟨6, _⟩ => ⟨S1x2x4096, .f32⟩
  | _, _ => ⟨S16x64x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x64x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S64_S1x64 : S64.ShapeCasts S1x64
  shapeCasts_S1x1x1x64x64_S64x64 : S1x1x1x64x64.ShapeCasts S64x64
  transposes_S64x64_S64x64_1_0 : S64x64.Transposes [1, 0] S64x64
  inb_S512x64_S512x64_0_0 : ∀ a, (![0, 0] : Fin 2 → Nat) a + S512x64.size a ≤ S512x64.size a
  h_S512x64 : 0 < S512x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S2x64x64x512_S1x64x64x512_0_0_0_0 : ∀ a, (![0, 0, 0, 0] : Fin 4 → Nat) a + S1x64x64x512.size a ≤ S2x64x64x512.size a
  h_S1x64x64x512 : 0 < S1x64x64x512.numel
  shapeCasts_S1x64x64x512_S64x64x512 : S1x64x64x512.ShapeCasts S64x64x512
  shapeCasts_S64x64x512_S4096x512 : S64x64x512.ShapeCasts S4096x512
  broadcasts_S1x64_S4096x64 : S1x64.Broadcasts S4096x64
  reduces_S4096x64_S4096 : S4096x64.Reduces [1] S4096
  shapeCasts_S4096_S4096x1 : S4096.ShapeCasts S4096x1
  broadcasts_S4096x1_S4096x64 : S4096x1.Broadcasts S4096x64
  bitsLt_bf16_f32 : FTy.bits .bf16 < FTy.bits .f32
  broadcasts_S64x1_S64x64 : S64x1.Broadcasts S64x64
  reduces_S64x64_S64 : S64x64.Reduces [1] S64
  shapeCasts_S64_S64x1 : S64.ShapeCasts S64x1
  shapeCasts_S64x64_S1x4096 : S64x64.ShapeCasts S1x4096
  reduces_S1x4096_S1 : S1x4096.Reduces [1] S1
  shapeCasts_S1_S1x1 : S1.ShapeCasts S1x1
  broadcasts_S1x1_S1x4096 : S1x1.Broadcasts S1x4096
  shapeCasts_S1x4096_S4096 : S1x4096.ShapeCasts S4096
  inb_S1x2x4096_S1x1x4096_0_0_0 : ∀ a, (![0, 0, 0] : Fin 3 → Nat) a + S1x1x4096.size a ≤ S1x2x4096.size a
  h_S1x1x4096 : 0 < S1x1x4096.numel
  shapeCasts_S1x1x4096_S4096 : S1x1x4096.ShapeCasts S4096
  shapeCasts_S4096_S1x1x4096 : S4096.ShapeCasts S1x1x4096
  inb_S2x64x64x512_S1x64x64x512_1_0_0_0 : ∀ a, (![1, 0, 0, 0] : Fin 4 → Nat) a + S1x64x64x512.size a ≤ S2x64x64x512.size a
  inb_S1x2x4096_S1x1x4096_0_1_0 : ∀ a, (![0, 1, 0] : Fin 3 → Nat) a + S1x1x4096.size a ≤ S1x2x4096.size a
  shapeCasts_S8x2x4096_S16x4096 : S8x2x4096.ShapeCasts S16x4096
  dot_S4096x512_S512x64_S4096x64_1_0_0_1_n_n_wf : DotDims.WF S4096x512 S512x64 S4096x64 [1] [0] [0] [1] [] []
  dot_S4096x64_S4096x64_S64x64_0_0_1_1_n_n_wf : DotDims.WF S4096x64 S4096x64 S64x64 [0] [0] [1] [1] [] []
  dot_S4096x64_S4096x1_S64x1_0_0_1_1_n_n_wf : DotDims.WF S4096x64 S4096x1 S64x1 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x64x64x512.size a ≤ S16x64x64x512.size a
  hwx0_0 : ∀ i : grid0.Coords, EltTy.bits .f32 = 32 ∨ (Rect.block (s := S16x64x64x512) S2x64x64x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2x4096.size a ≤ S8x2x4096.size a
  hwx0_4 : ∀ i : grid0.Coords, EltTy.bits .f32 = 32 ∨ (Rect.block (s := S8x2x4096) S1x2x4096.size (cc0_transform_4 i) (hinb0_4 i)).WholeWords (EltTy.packing .f32)

variable [Facts₀]

def dot_S4096x512_S512x64_S4096x64_1_0_0_1_n_n : DotDims S4096x512 S512x64 S4096x64 where
  lhsContracting := [1]
  rhsContracting := [0]
  lhsNonContracting := [0]
  rhsNonContracting := [1]
  lhsBatch := []
  rhsBatch := []
  wf := dot_S4096x512_S512x64_S4096x64_1_0_0_1_n_n_wf
def dot_S4096x64_S4096x64_S64x64_0_0_1_1_n_n : DotDims S4096x64 S4096x64 S64x64 where
  lhsContracting := [0]
  rhsContracting := [0]
  lhsNonContracting := [1]
  rhsNonContracting := [1]
  lhsBatch := []
  rhsBatch := []
  wf := dot_S4096x64_S4096x64_S64x64_0_0_1_1_n_n_wf
def dot_S4096x64_S4096x1_S64x1_0_0_1_1_n_n : DotDims S4096x64 S4096x1 S64x1 where
  lhsContracting := [0]
  rhsContracting := [0]
  lhsNonContracting := [1]
  rhsNonContracting := [1]
  lhsBatch := []
  rhsBatch := []
  wf := dot_S4096x64_S4096x1_S64x1_0_0_1_1_n_n_wf

abbrev win0_0 : Pipeline.Window sig grid0 :=
  Pipeline.Window.ofSpec (Memref.whole main_arg0) S2x64x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x2x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x64x64x512 : Shape := ⟨4, ![16, 64, 64, 512]⟩
abbrev S512x64 : Shape := ⟨2, ![512, 64]⟩
abbrev S64 : Shape := ⟨1, ![64]⟩
abbrev S1x1x1x64x64 : Shape := ⟨5, ![1, 1, 1, 64, 64]⟩
abbrev S16x64x64x64 : Shape := ⟨4, ![16, 64, 64, 64]⟩
abbrev S1x1x1x64 : Shape := ⟨4, ![1, 1, 1, 64]⟩
abbrev S_ : Shape := ⟨0, ![]⟩
abbrev S16x64x64 : Shape := ⟨3, ![16, 64, 64]⟩
abbrev S16x64x64x1 : Shape := ⟨4, ![16, 64, 64, 1]⟩
abbrev S16x64x64x1x64 : Shape := ⟨5, ![16, 64, 64, 1, 64]⟩
abbrev S16x64x64x64x1 : Shape := ⟨5, ![16, 64, 64, 64, 1]⟩
abbrev S16x64x64x64x64 : Shape := ⟨5, ![16, 64, 64, 64, 64]⟩
abbrev S16x64 : Shape := ⟨2, ![16, 64]⟩
abbrev S16x64x1 : Shape := ⟨3, ![16, 64, 1]⟩
abbrev S16x4096 : Shape := ⟨2, ![16, 4096]⟩
abbrev S16 : Shape := ⟨1, ![16]⟩
abbrev S16x1 : Shape := ⟨2, ![16, 1]⟩

abbrev nBuf : Space → Nat
  | .hbm => 53
  | .vmem => 0
  | .smem => 0
  | _ => 0

abbrev bufTy : (tb : Table) → Fin (tcTables nBuf tb) → BufTy
  | .hbm, ⟨0, _⟩ => ⟨S16x64x64x512, .f32⟩
  | .hbm, ⟨1, _⟩ => ⟨S512x64, .f32⟩
  | .hbm, ⟨2, _⟩ => ⟨S64, .f32⟩
  | .hbm, ⟨3, _⟩ => ⟨S1x1x1x64x64, .f32⟩
  | .hbm, ⟨4, _⟩ => ⟨S16x64x64x64, .f32⟩
  | .hbm, ⟨5, _⟩ => ⟨S1x1x1x64, .f32⟩
  | .hbm, ⟨6, _⟩ => ⟨S16x64x64x64, .f32⟩
  | .hbm, ⟨7, _⟩ => ⟨S16x64x64x64, .f32⟩
  | .hbm, ⟨8, _⟩ => ⟨S_, .f32⟩
  | .hbm, ⟨9, _⟩ => ⟨S16x64x64, .f32⟩
  | .hbm, ⟨10, _⟩ => ⟨S_, .f32⟩
  | .hbm, ⟨11, _⟩ => ⟨S16x64x64, .f32⟩
  | .hbm, ⟨12, _⟩ => ⟨S16x64x64, .f32⟩
  | .hbm, ⟨13, _⟩ => ⟨S16x64x64x1, .f32⟩
  | .hbm, ⟨14, _⟩ => ⟨S16x64x64x64, .f32⟩
  | .hbm, ⟨15, _⟩ => ⟨S16x64x64x64, .f32⟩
  | .hbm, ⟨16, _⟩ => ⟨S16x64x64x64, .f32⟩
  | .hbm, ⟨17, _⟩ => ⟨S_, .f32⟩
  | .hbm, ⟨18, _⟩ => ⟨S16x64x64, .f32⟩
  | .hbm, ⟨19, _⟩ => ⟨S16x64x64x1, .f32⟩
  | .hbm, ⟨20, _⟩ => ⟨S16x64x64x64, .f32⟩
  | .hbm, ⟨21, _⟩ => ⟨S16x64x64x64, .f32⟩
  | .hbm, ⟨22, _⟩ => ⟨S16x64x64x1x64, .f32⟩
  | .hbm, ⟨23, _⟩ => ⟨S16x64x64x64x1, .f32⟩
  | .hbm, ⟨24, _⟩ => ⟨S16x64x64x64x64, .f32⟩
  | .hbm, ⟨25, _⟩ => ⟨S16x64x64x64x64, .f32⟩
  | .hbm, ⟨26, _⟩ => ⟨S16x64x64x64x64, .f32⟩
  | .hbm, ⟨27, _⟩ => ⟨S16x64x64x64x64, .f32⟩
  | .hbm, ⟨28, _⟩ => ⟨S16x64x64x64x64, .f32⟩
  | .hbm, ⟨29, _⟩ => ⟨S_, .f32⟩
  | .hbm, ⟨30, _⟩ => ⟨S16x64x64, .f32⟩
  | .hbm, ⟨31, _⟩ => ⟨S16x64x64, .f32⟩
  | .hbm, ⟨32, _⟩ => ⟨S16x64x64, .f32⟩
  | .hbm, ⟨33, _⟩ => ⟨S_, .f32⟩
  | .hbm, ⟨34, _⟩ => ⟨S16x64, .f32⟩
  | .hbm, ⟨35, _⟩ => ⟨S16x64x1, .f32⟩
  | .hbm, ⟨36, _⟩ => ⟨S_, .f32⟩
  | .hbm, ⟨37, _⟩ => ⟨S16x64x1, .f32⟩
  | .hbm, ⟨38, _⟩ => ⟨S16x64x1, .f32⟩
  | .hbm, ⟨39, _⟩ => ⟨S16x64x1, .f32⟩
  | .hbm, ⟨40, _⟩ => ⟨S16x64x64, .f32⟩
  | .hbm, ⟨41, _⟩ => ⟨S16x64x64, .f32⟩
  | .hbm, ⟨42, _⟩ => ⟨S16x4096, .f32⟩
  | .hbm, ⟨43, _⟩ => ⟨S16x4096, .f32⟩
  | .hbm, ⟨44, _⟩ => ⟨S_, .f32⟩
  | .hbm, ⟨45, _⟩ => ⟨S16, .f32⟩
  | .hbm, ⟨46, _⟩ => ⟨S16x1, .f32⟩
  | .hbm, ⟨47, _⟩ => ⟨S_, .f32⟩
  | .hbm, ⟨48, _⟩ => ⟨S16x1, .f32⟩
  | .hbm, ⟨49, _⟩ => ⟨S16x1, .f32⟩
  | .hbm, ⟨50, _⟩ => ⟨S16x1, .f32⟩
  | .hbm, ⟨51, _⟩ => ⟨S16x4096, .f32⟩
  | .hbm, ⟨52, _⟩ => ⟨S16x4096, .f32⟩
  | _, _ => ⟨S16x64x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]

class Facts₀ : Prop where
  bcast_S64_S1x1x1x64_3 : S64.BroadcastsInDim S1x1x1x64 (![3] : Fin 1 → Fin S1x1x1x64.rank)
  bcast_S1x1x1x64_S16x64x64x64_0_1_2_3 : S1x1x1x64.BroadcastsInDim S16x64x64x64 (![0, 1, 2, 3] : Fin 4 → Fin S16x64x64x64.rank)
  reducesTo_S16x64x64x64_S16x64x64_d3 : S16x64x64x64.ReducesTo [3] S16x64x64
  h_S_ : 0 < S_.numel
  bcast_S_S16x64x64 : S_.BroadcastsInDim S16x64x64 (![] : Fin 0 → Fin S16x64x64.rank)
  bcast_S16x64x64_S16x64x64x1_0_1_2 : S16x64x64.BroadcastsInDim S16x64x64x1 (![0, 1, 2] : Fin 3 → Fin S16x64x64x1.rank)
  bcast_S16x64x64x1_S16x64x64x64_0_1_2_3 : S16x64x64x1.BroadcastsInDim S16x64x64x64 (![0, 1, 2, 3] : Fin 4 → Fin S16x64x64x64.rank)
  bcast_S16x64x64x64_S16x64x64x1x64_0_1_2_4 : S16x64x64x64.BroadcastsInDim S16x64x64x1x64 (![0, 1, 2, 4] : Fin 4 → Fin S16x64x64x1x64.rank)
  bcast_S16x64x64x64_S16x64x64x64x1_0_1_2_3 : S16x64x64x64.BroadcastsInDim S16x64x64x64x1 (![0, 1, 2, 3] : Fin 4 → Fin S16x64x64x64x1.rank)
  bcast_S16x64x64x64x1_S16x64x64x64x64_0_1_2_3_4 : S16x64x64x64x1.BroadcastsInDim S16x64x64x64x64 (![0, 1, 2, 3, 4] : Fin 5 → Fin S16x64x64x64x64.rank)
  bcast_S1x1x1x64x64_S16x64x64x64x64_0_1_2_3_4 : S1x1x1x64x64.BroadcastsInDim S16x64x64x64x64 (![0, 1, 2, 3, 4] : Fin 5 → Fin S16x64x64x64x64.rank)
  bcast_S16x64x64x1x64_S16x64x64x64x64_0_1_2_3_4 : S16x64x64x1x64.BroadcastsInDim S16x64x64x64x64 (![0, 1, 2, 3, 4] : Fin 5 → Fin S16x64x64x64x64.rank)
  reducesTo_S16x64x64x64x64_S16x64x64_d1_2 : S16x64x64x64x64.ReducesTo [1, 2] S16x64x64
  transposes_S16x64x64_S16x64x64_0_2_1 : S16x64x64.Transposes [0, 2, 1] S16x64x64
  reducesTo_S16x64x64_S16x64_d2 : S16x64x64.ReducesTo [2] S16x64
  bcast_S16x64_S16x64x1_0_1 : S16x64.BroadcastsInDim S16x64x1 (![0, 1] : Fin 2 → Fin S16x64x1.rank)
  bcast_S_S16x64x1 : S_.BroadcastsInDim S16x64x1 (![] : Fin 0 → Fin S16x64x1.rank)
  bcast_S16x64x1_S16x64x64_0_1_2 : S16x64x1.BroadcastsInDim S16x64x64 (![0, 1, 2] : Fin 3 → Fin S16x64x64.rank)
  shapeCasts_S16x64x64_S16x4096 : S16x64x64.ShapeCasts S16x4096
  reducesTo_S16x4096_S16_d1 : S16x4096.ReducesTo [1] S16
  bcast_S16_S16x1_0 : S16.BroadcastsInDim S16x1 (![0] : Fin 1 → Fin S16x1.rank)
  bcast_S_S16x1 : S_.BroadcastsInDim S16x1 (![] : Fin 0 → Fin S16x1.rank)
  bcast_S16x1_S16x4096_0_1 : S16x1.BroadcastsInDim S16x4096 (![0, 1] : Fin 2 → Fin S16x4096.rank)
  dot_S16x64x64x512_S512x64_S16x64x64x64_3_0_012_1_n_n_wf : DotDims.WF S16x64x64x512 S512x64 S16x64x64x64 [3] [0] [0, 1, 2] [1] [] []

variable [Facts₀]

def dot_S16x64x64x512_S512x64_S16x64x64x64_3_0_012_1_n_n : DotDims S16x64x64x512 S512x64 S16x64x64x64 where
  lhsContracting := [3]
  rhsContracting := [0]
  lhsNonContracting := [0, 1, 2]
  rhsNonContracting := [1]
  lhsBatch := []
  rhsBatch := []
  wf := dot_S16x64x64x512_S512x64_S16x64x64x64_3_0_012_1_n_n_wf

class Facts : Prop extends Facts₀ where

variable [Facts]
-- ==== Proof.LibKeepdims.lean ====
/-
  Keepdims layouts and last-axis reductions of a matrix, read at indices written by coordinates.

  A sum or maximum taken with the reduced axis kept prints as a reduction to a vector [a], a cast of that vector to a
  column [a, 1], and a broadcast of the column across [a, b]. Read at (p, c), the column is the vector at p and the
  broadcast is the column at p; a vector [n] viewed as [1, 1, n] keeps its entries. A reduction of a matrix [a, b]
  over its last axis reads, at row p, the entries (p, k) for every k: a float sum is their sum, a float maximum from
  −∞ is their maximum folded from −∞. The words of −∞ and of 1.0 denote −∞ and 1.
  Every statement is generic in the extents.
-/
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- A vector [a] cast to a column [a, 1] reads, at (p, u), the vector at p. -/
theorem cast_vec_col {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] broadcast to [a, b] reads, at (p, c), the column at p. -/
theorem bcast_col {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [n] cast to [1, 1, n] reads, at (u, u', j), the vector at j. -/
theorem cast_vec_11n {n : ℕ} (x : (⟨1, ![n]⟩ : Shape).Idx → α) (h : (⟨1, ![n]⟩ : Shape).ShapeCasts ⟨3, ![1, 1, n]⟩)
    (u u' : Fin 1) (j : Fin n) : shapeCast ⟨3, ![1, 1, n]⟩ x h (ix3 u u' j) = x (ix1 j) :=
  shapeCast_apply x h _ _ (by
    have hu : u.val = 0 := by omega
    have hu' : u'.val = 0 := by omega
    rw [Shape.rowMajor_val_three, Shape.rowMajor_val_one]
    show j.val = (u.val * 1 + u'.val) * n + j.val
    rw [hu, hu']
    simp)

/-- Over row p of a matrix, the index a last-axis reduction inserts coordinate k into is (p, k). -/
theorem lift_row {a b : ℕ} (h : (⟨2, ![a, b]⟩ : Shape).Reduces [1] ⟨1, ![a]⟩) (p : Fin a) (k : Fin b) :
    h.lift (ix1 p) k = ix2 p k :=
  funext fun c => Fin.ext (match c with | ⟨0, _⟩ => rfl | ⟨1, _⟩ => rfl)

/-- A float sum of a matrix over its last axis, at row p, is the sum of that row. -/
theorem sum_row {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src (lift_row h p k))

/-- The word of f32's −∞ denotes −∞. -/
theorem ofBits_neg_inf : Ideal.ofBits .f32 0xFF800000#32 = (⊥ : EReal) := by simp [Ideal.ofBits, Ideal.ieee]

/-- The word of f32's 1.0 denotes 1. -/
theorem ofBits_one_f32 : Ideal.ofBits .f32 0x3F800000#32 = (1 : EReal) :=
  IdealRules.sign_bit.ideal_onePat .f32

/-- The word of bf16's 1.0 denotes 1. -/
theorem ofBits_one_bf16 : Ideal.ofBits .bf16 0x3F80#16 = (1 : EReal) :=
  IdealRules.sign_bit.ideal_onePat .bf16

/-- A float maximum of a matrix over its last axis from −∞, at row p, is the maximum of that row from −∞. -/
theorem max_row {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src _ h hφ hacc (ix1 p)).trans ?_
  show (Finset.univ : Finset (Fin b)).fold max (Ideal.ofBits .f32 0xFF800000#32) (src ∘ h.lift (ix1 p)) = _
  rw [ofBits_neg_inf]
  exact congrArg (fun g : Fin b → EReal => (Finset.univ : Finset (Fin b)).fold max ⊥ g)
    (funext fun k => congrArg src (lift_row h p k))

end Cert.LibKeepdims

end
-- ==== Proof.Spec.lean ====
/-
  The per-batch mathematics of the layer, over plain functions of coordinates.

  For one batch element write X for its 4096 × 512 matrix of pixels (a pixel is a position p = 64·h + w of the 64 × 64
  image), W for the 512 × 64 projection, b for the bias and C for the 64 × 64 table of centres, read C d k.
  The logits are f p k = Σ_c X p c · W c k + b k. The soft assignment of pixel p is the softmax of its row of logits,
  computed after subtracting the row's maximum: e p k = exp (f p k − max_k f p k), s p k = e p k / Σ_k e p k.
  The aggregate is v k d = Σ_p s p k · (f p d + C d k). Each row v k · is scaled by the reciprocal square root of
  max (Σ_d v k d², ε); the 64 × 64 result is laid out flat, j = 64·k + d, and scaled once more by the reciprocal
  square root of max (Σ_j u j², ε).

  Two spellings of the same numbers occur. One divides each exponential by the row's sum and sums s · (f + C) directly
  (`softR`, `aggR`). The other multiplies by the reciprocal of the row's sum and splits the aggregate into
  Σ_p s p k · f p d + C d k · Σ_p s p k (`softK`, `aggK`). They agree wherever every logit and every centre is a real
  number: the row's sum is then a positive real, so both quotients are the same real, and a real factor distributes
  over a sum of reals.
-/
import Idealize.ShloMosaic.PureOps.Ideal
import Idealize.ShloMosaic.Lib.ValueIdx

noncomputable section

open scoped BigOperators

namespace Cert.NetVlad

open Idealize.ShloMosaic

/-- The row of a flat position of the 64 × 64 square. -/
def hi (j : Fin 4096) : Fin 64 := ⟨j.val / 64, by have := j.isLt; omega⟩
/-- The column of a flat position of the 64 × 64 square. -/
def lo (j : Fin 4096) : Fin 64 := ⟨j.val % 64, Nat.mod_lt _ (by decide)⟩

/-- The floor under both sums of squares. -/
def eps : EReal := Ideal.ofBits .f32 0x2B8CBCCC#32

/-- The logits: pixel p projected on cluster k, plus the bias. -/
def logit (X : Fin 4096 → Fin 512 → EReal) (W : Fin 512 → Fin 64 → EReal) (b : Fin 64 → EReal)
    (p : Fin 4096) (k : Fin 64) : EReal :=
  (∑ c : Fin 512, X p c * W c k) + b k

/-- The largest logit of pixel p. -/
def rowMax (f : Fin 4096 → Fin 64 → EReal) (p : Fin 4096) : EReal :=
  (Finset.univ : Finset (Fin 64)).fold max ⊥ (f p)

/-- The exponential of a logit after the row's maximum is taken off. -/
def ex (f : Fin 4096 → Fin 64 → EReal) (p : Fin 4096) (k : Fin 64) : EReal :=
  Ideal.exp (f p k - rowMax f p)

/-- The sum of a row's exponentials. -/
def esum (f : Fin 4096 → Fin 64 → EReal) (p : Fin 4096) : EReal := ∑ k : Fin 64, ex f p k

/-- The soft assignment as a product with the reciprocal of the row's sum. -/
def softK (f : Fin 4096 → Fin 64 → EReal) (p : Fin 4096) (k : Fin 64) : EReal :=
  ex f p k * Ideal.div 1 (esum f p)

/-- The soft assignment as a quotient by the row's sum. -/
def softR (f : Fin 4096 → Fin 64 → EReal) (p : Fin 4096) (k : Fin 64) : EReal :=
  Ideal.div (ex f p k) (esum f p)

/-- The aggregate, split: Σ_p s p k · f p d, plus the centre times the total assignment of cluster k. -/
def aggK (f : Fin 4096 → Fin 64 → EReal) (C : Fin 64 → Fin 64 → EReal) (k d : Fin 64) : EReal :=
  (∑ p : Fin 4096, softK f p k * f p d) + C d k * (∑ p : Fin 4096, softK f p k)

/-- The aggregate, direct: Σ_p s p k · (f p d + C d k). -/
def aggR (f : Fin 4096 → Fin 64 → EReal) (C : Fin 64 → Fin 64 → EReal) (k d : Fin 64) : EReal :=
  ∑ p : Fin 4096, softR f p k * (f p d + C d k)

/-- Row k scaled to unit length, with the floor ε under the sum of squares. -/
def rowNormed (v : Fin 64 → Fin 64 → EReal) (k d : Fin 64) : EReal :=
  v k d * Ideal.rsqrt (max (∑ d' : Fin 64, v k d' * v k d') eps)

/-- The row-normalised square laid out flat, row after row. -/
def flat (v : Fin 64 → Fin 64 → EReal) (j : Fin 4096) : EReal := rowNormed v (hi j) (lo j)

/-- The flat vector scaled to unit length, with the same floor. -/
def out (v : Fin 64 → Fin 64 → EReal) (j : Fin 4096) : EReal :=
  flat v j * Ideal.rsqrt (max (∑ j' : Fin 4096, flat v j' * flat v j') eps)

/-- One batch element's result in the split spelling. -/
def GbK (X : Fin 4096 → Fin 512 → EReal) (W : Fin 512 → Fin 64 → EReal) (b : Fin 64 → EReal)
    (C : Fin 64 → Fin 64 → EReal) : Fin 4096 → EReal :=
  out (aggK (logit X W b) C)

/-- One batch element's result in the direct spelling. -/
def GbR (X : Fin 4096 → Fin 512 → EReal) (W : Fin 512 → Fin 64 → EReal) (b : Fin 64 → EReal)
    (C : Fin 64 → Fin 64 → EReal) : Fin 4096 → EReal :=
  out (aggR (logit X W b) C)

/-! ## The arrays by coordinates, and the whole result -/

/-- Batch element bb of the pixel array [16, 64, 64, 512] as a 4096 × 512 matrix: pixel p = 64·h + w is (h, w). -/
def Xof (x : (⟨4, ![16, 64, 64, 512]⟩ : Shape).Idx → EReal) (bb : Fin 16) (p : Fin 4096) (c : Fin 512) : EReal :=
  x (ValueIdx.ix4 bb (hi p) (lo p) c)

/-- The projection [512, 64] by coordinates. -/
def Wof (w : (⟨2, ![512, 64]⟩ : Shape).Idx → EReal) (c : Fin 512) (k : Fin 64) : EReal := w (ValueIdx.ix2 c k)

/-- The bias [64] by its coordinate. -/
def bof (b : (⟨1, ![64]⟩ : Shape).Idx → EReal) (k : Fin 64) : EReal := b (ValueIdx.ix1 k)

/-- The centres [1, 1, 1, 64, 64] by their two coordinates: C d k. -/
def Cof (C : (⟨5, ![1, 1, 1, 64, 64]⟩ : Shape).Idx → EReal) (d k : Fin 64) : EReal :=
  C (ValueIdx.ix5 (0 : Fin 1) (0 : Fin 1) (0 : Fin 1) d k)

/-- The whole result [16, 4096]: row bb is batch element bb's flat, twice normalised aggregate. -/
def G (x : (⟨4, ![16, 64, 64, 512]⟩ : Shape).Idx → EReal) (w : (⟨2, ![512, 64]⟩ : Shape).Idx → EReal)
    (b : (⟨1, ![64]⟩ : Shape).Idx → EReal) (C : (⟨5, ![1, 1, 1, 64, 64]⟩ : Shape).Idx → EReal) :
    (⟨2, ![16, 4096]⟩ : Shape).Idx → EReal :=
  fun i => GbR (Xof x ⟨(i 0).val, (i 0).isLt⟩) (Wof w) (bof b) (Cof C) ⟨(i 1).val, (i 1).isLt⟩

end Cert.NetVlad

end
-- ==== Proof.PayStages.lean ====
/-
  What the kernel's body stores for one batch element, read at a flat position, is the layer in the split spelling.

  The body handles the two batch elements of a block with the same operations. For one of them, on the slab
  xb : [1, 64, 64, 512] of the block, the weights w, the bias row b2 : [1, 64] and the transposed centres
  ct : [64, 64] (ct k d is the centre C d k), the operations are, in order:
    the slab viewed as a 4096 × 512 matrix, times w, plus the bias row on every pixel: the logits f p k;
    the row maximum taken off, the exponential, the row sum, its reciprocal, the product: the soft assignment s p k;
    sᵀ f contracted over the 4096 pixels, plus ct times (sᵀ 1 broadcast along the row): the aggregate v k d;
    the row sums of v², floored, as a column, its reciprocal square root broadcast along the row, the product,
    viewed as one row of 4096: the row-normalised square laid out flat;
    the sum of its squares, floored, the reciprocal square root broadcast along it, the product: the result.
  Each stage below is that composition of the printed operations; the two payload chains of the body are their
  composite by unfolding alone, and each stage read at an index is the corresponding definition of the specification.
-/
import proofs.«411206_j48189533061458_3_alg».proof.Proof.Gen.KernelIdeal.Skeleton
import proofs.«411206_j48189533061458_3_alg».proof.Proof.LibKeepdims
import proofs.«411206_j48189533061458_3_alg».proof.Proof.Spec

noncomputable section

open scoped BigOperators

namespace Cert.KernelIdeal.PayVal

open Cert.KernelIdeal Cert.KernelIdeal.Gen Cert.NetVlad Cert.LibKeepdims
open Idealize.ShloMosaic Idealize.ShloMosaic.ValueIdx

/-- The 64 × 64 square cast to one row of 4096 reads, at flat position j, the square at (j / 64, j % 64). -/
theorem cast_square_row {α : Type} (x : (⟨2, ![64, 64]⟩ : Shape).Idx → α) (h : (⟨2, ![64, 64]⟩ : Shape).ShapeCasts ⟨2, ![1, 4096]⟩)
    (u : Fin 1) (j : Fin 4096) : shapeCast ⟨2, ![1, 4096]⟩ x h (ix2 u j) = x (ix2 (hi j) (lo j)) :=
  shapeCast_apply x h _ _ (by
    have hu : u.val = 0 := by omega
    rw [Shape.rowMajor_val_two, Shape.rowMajor_val_two]
    show j.val / 64 * 64 + j.val % 64 = u.val * 4096 + j.val
    omega)

/-! ## The three contractions read at an index -/

abbrev Dxw := dot_S4096x512_S512x64_S4096x64_1_0_0_1_n_n
abbrev Dsf := dot_S4096x64_S4096x64_S64x64_0_0_1_1_n_n
abbrev Ds1 := dot_S4096x64_S4096x1_S64x1_0_0_1_1_n_n

theorem lhs_xw_0 (i : S4096x64.Idx) (q : dot_S4096x512_S512x64_S4096x64_1_0_0_1_n_n.contr.Idx) :
    (dot_S4096x512_S512x64_S4096x64_1_0_0_1_n_n.lhsIdx i q 0).val = (i 0).val := by
  unfold DotDims.lhsIdx
  rw [dif_neg (show ¬(0 : Fin S4096x512.rank) ∈ dot_S4096x512_S512x64_S4096x64_1_0_0_1_n_n.lhsBatch by decide), dif_pos (show (0 : Fin S4096x512.rank) ∈ dot_S4096x512_S512x64_S4096x64_1_0_0_1_n_n.lhsNonContracting by decide)]
  rfl
theorem lhs_xw_1 (i : S4096x64.Idx) (q : dot_S4096x512_S512x64_S4096x64_1_0_0_1_n_n.contr.Idx) :
    (dot_S4096x512_S512x64_S4096x64_1_0_0_1_n_n.lhsIdx i q 1).val = (q ⟨0, by decide⟩).val :=
  dot_S4096x512_S512x64_S4096x64_1_0_0_1_n_n.lhsIdx_val_of_single rfl i q
theorem rhs_xw_0 (i : S4096x64.Idx) (q : dot_S4096x512_S512x64_S4096x64_1_0_0_1_n_n.contr.Idx) :
    (dot_S4096x512_S512x64_S4096x64_1_0_0_1_n_n.rhsIdx i q 0).val = (q ⟨0, by decide⟩).val :=
  dot_S4096x512_S512x64_S4096x64_1_0_0_1_n_n.rhsIdx_val_of_single rfl i q
theorem rhs_xw_1 (i : S4096x64.Idx) (q : dot_S4096x512_S512x64_S4096x64_1_0_0_1_n_n.contr.Idx) :
    (dot_S4096x512_S512x64_S4096x64_1_0_0_1_n_n.rhsIdx i q 1).val = (i 1).val := by
  unfold DotDims.rhsIdx
  rw [dif_neg (show ¬(1 : Fin S512x64.rank) ∈ dot_S4096x512_S512x64_S4096x64_1_0_0_1_n_n.rhsBatch by decide), dif_pos (show (1 : Fin S512x64.rank) ∈ dot_S4096x512_S512x64_S4096x64_1_0_0_1_n_n.rhsNonContracting by decide)]
  rfl

/-- The pixels-by-channels matrix times the weights, into zero: entry (p, k) is Σ_c X p c · w c k. -/
theorem mm_xw (X : FVec Ideal S4096x512 .f32) (w : FVec Ideal S512x64 .f32) (p : Fin 4096) (k : Fin 64) :
    matmul dot_S4096x512_S512x64_S4096x64_1_0_0_1_n_n (some .fp32) X w (constant S4096x64 .f32 0x00000000#32) (ix2 p k)
      = ∑ c : Fin 512, X (ix2 p c) * w (ix2 c k) := by
  simp only [matmul]
  rw [Ideal.matmul_constant_zero_apply, ← Equiv.sum_comp (contrEquiv1 dot_S4096x512_S512x64_S4096x64_1_0_0_1_n_n 512 rfl rfl).symm]
  refine Finset.sum_congr rfl fun c _ => ?_
  have hk := contrEquiv1_symm_val dot_S4096x512_S512x64_S4096x64_1_0_0_1_n_n 512 rfl rfl c
  have el : dot_S4096x512_S512x64_S4096x64_1_0_0_1_n_n.lhsIdx (ix2 p k) ((contrEquiv1 dot_S4096x512_S512x64_S4096x64_1_0_0_1_n_n 512 rfl rfl).symm c) = ix2 p c := funext fun a => Fin.ext (by
    match a with
    | ⟨0, _⟩ => exact lhs_xw_0 _ _
    | ⟨1, _⟩ => exact (lhs_xw_1 _ _).trans hk)
  have er : dot_S4096x512_S512x64_S4096x64_1_0_0_1_n_n.rhsIdx (ix2 p k) ((contrEquiv1 dot_S4096x512_S512x64_S4096x64_1_0_0_1_n_n 512 rfl rfl).symm c) = ix2 c k := funext fun a => Fin.ext (by
    match a with
    | ⟨0, _⟩ => exact (rhs_xw_0 _ _).trans hk
    | ⟨1, _⟩ => exact rhs_xw_1 _ _)
  rw [el, er]

theorem lhs_sf_0 (i : S64x64.Idx) (q : dot_S4096x64_S4096x64_S64x64_0_0_1_1_n_n.contr.Idx) :
    (dot_S4096x64_S4096x64_S64x64_0_0_1_1_n_n.lhsIdx i q 0).val = (q ⟨0, by decide⟩).val :=
  dot_S4096x64_S4096x64_S64x64_0_0_1_1_n_n.lhsIdx_val_of_single rfl i q
theorem lhs_sf_1 (i : S64x64.Idx) (q : dot_S4096x64_S4096x64_S64x64_0_0_1_1_n_n.contr.Idx) :
    (dot_S4096x64_S4096x64_S64x64_0_0_1_1_n_n.lhsIdx i q 1).val = (i 0).val := by
  unfold DotDims.lhsIdx
  rw [dif_neg (show ¬(1 : Fin S4096x64.rank) ∈ dot_S4096x64_S4096x64_S64x64_0_0_1_1_n_n.lhsBatch by decide), dif_pos (show (1 : Fin S4096x64.rank) ∈ dot_S4096x64_S4096x64_S64x64_0_0_1_1_n_n.lhsNonContracting by decide)]
  rfl
theorem rhs_sf_0 (i : S64x64.Idx) (q : dot_S4096x64_S4096x64_S64x64_0_0_1_1_n_n.contr.Idx) :
    (dot_S4096x64_S4096x64_S64x64_0_0_1_1_n_n.rhsIdx i q 0).val = (q ⟨0, by decide⟩).val :=
  dot_S4096x64_S4096x64_S64x64_0_0_1_1_n_n.rhsIdx_val_of_single rfl i q
theorem rhs_sf_1 (i : S64x64.Idx) (q : dot_S4096x64_S4096x64_S64x64_0_0_1_1_n_n.contr.Idx) :
    (dot_S4096x64_S4096x64_S64x64_0_0_1_1_n_n.rhsIdx i q 1).val = (i 1).val := by
  unfold DotDims.rhsIdx
  rw [dif_neg (show ¬(1 : Fin S4096x64.rank) ∈ dot_S4096x64_S4096x64_S64x64_0_0_1_1_n_n.rhsBatch by decide), dif_pos (show (1 : Fin S4096x64.rank) ∈ dot_S4096x64_S4096x64_S64x64_0_0_1_1_n_n.rhsNonContracting by decide)]
  rfl

/-- The assignment transposed times the logits, over the pixels, into zero: entry (k, d) is Σ_p s p k · f p d. -/
theorem mm_sf (s f : FVec Ideal S4096x64 .bf16) (k d : Fin 64) :
    matmul dot_S4096x64_S4096x64_S64x64_0_0_1_1_n_n none s f (constant S64x64 .f32 0x00000000#32) (ix2 k d)
      = ∑ p : Fin 4096, s (ix2 p k) * f (ix2 p d) := by
  simp only [matmul]
  rw [Ideal.matmul_constant_zero_apply, ← Equiv.sum_comp (contrEquiv1 dot_S4096x64_S4096x64_S64x64_0_0_1_1_n_n 4096 rfl rfl).symm]
  refine Finset.sum_congr rfl fun p _ => ?_
  have hk := contrEquiv1_symm_val dot_S4096x64_S4096x64_S64x64_0_0_1_1_n_n 4096 rfl rfl p
  have el : dot_S4096x64_S4096x64_S64x64_0_0_1_1_n_n.lhsIdx (ix2 k d) ((contrEquiv1 dot_S4096x64_S4096x64_S64x64_0_0_1_1_n_n 4096 rfl rfl).symm p) = ix2 p k := funext fun a => Fin.ext (by
    match a with
    | ⟨0, _⟩ => exact (lhs_sf_0 _ _).trans hk
    | ⟨1, _⟩ => exact lhs_sf_1 _ _)
  have er : dot_S4096x64_S4096x64_S64x64_0_0_1_1_n_n.rhsIdx (ix2 k d) ((contrEquiv1 dot_S4096x64_S4096x64_S64x64_0_0_1_1_n_n 4096 rfl rfl).symm p) = ix2 p d := funext fun a => Fin.ext (by
    match a with
    | ⟨0, _⟩ => exact (rhs_sf_0 _ _).trans hk
    | ⟨1, _⟩ => exact rhs_sf_1 _ _)
  rw [el, er]

theorem lhs_s1_0 (i : S64x1.Idx) (q : dot_S4096x64_S4096x1_S64x1_0_0_1_1_n_n.contr.Idx) :
    (dot_S4096x64_S4096x1_S64x1_0_0_1_1_n_n.lhsIdx i q 0).val = (q ⟨0, by decide⟩).val :=
  dot_S4096x64_S4096x1_S64x1_0_0_1_1_n_n.lhsIdx_val_of_single rfl i q
theorem lhs_s1_1 (i : S64x1.Idx) (q : dot_S4096x64_S4096x1_S64x1_0_0_1_1_n_n.contr.Idx) :
    (dot_S4096x64_S4096x1_S64x1_0_0_1_1_n_n.lhsIdx i q 1).val = (i 0).val := by
  unfold DotDims.lhsIdx
  rw [dif_neg (show ¬(1 : Fin S4096x64.rank) ∈ dot_S4096x64_S4096x1_S64x1_0_0_1_1_n_n.lhsBatch by decide), dif_pos (show (1 : Fin S4096x64.rank) ∈ dot_S4096x64_S4096x1_S64x1_0_0_1_1_n_n.lhsNonContracting by decide)]
  rfl
theorem rhs_s1_0 (i : S64x1.Idx) (q : dot_S4096x64_S4096x1_S64x1_0_0_1_1_n_n.contr.Idx) :
    (dot_S4096x64_S4096x1_S64x1_0_0_1_1_n_n.rhsIdx i q 0).val = (q ⟨0, by decide⟩).val :=
  dot_S4096x64_S4096x1_S64x1_0_0_1_1_n_n.rhsIdx_val_of_single rfl i q
theorem rhs_s1_1 (i : S64x1.Idx) (q : dot_S4096x64_S4096x1_S64x1_0_0_1_1_n_n.contr.Idx) :
    (dot_S4096x64_S4096x1_S64x1_0_0_1_1_n_n.rhsIdx i q 1).val = (i 1).val := by
  unfold DotDims.rhsIdx
  rw [dif_neg (show ¬(1 : Fin S4096x1.rank) ∈ dot_S4096x64_S4096x1_S64x1_0_0_1_1_n_n.rhsBatch by decide), dif_pos (show (1 : Fin S4096x1.rank) ∈ dot_S4096x64_S4096x1_S64x1_0_0_1_1_n_n.rhsNonContracting by decide)]
  rfl

/-- The assignment transposed times a column, over the pixels, into zero: entry (k, 0) is Σ_p s p k · o p. -/
theorem mm_s1 (s : FVec Ideal S4096x64 .bf16) (o : FVec Ideal S4096x1 .bf16) (k : Fin 64) (u : Fin 1) :
    matmul dot_S4096x64_S4096x1_S64x1_0_0_1_1_n_n none s o (constant S64x1 .f32 0x00000000#32) (ix2 k u)
      = ∑ p : Fin 4096, s (ix2 p k) * o (ix2 p u) := by
  simp only [matmul]
  rw [Ideal.matmul_constant_zero_apply, ← Equiv.sum_comp (contrEquiv1 dot_S4096x64_S4096x1_S64x1_0_0_1_1_n_n 4096 rfl rfl).symm]
  refine Finset.sum_congr rfl fun p _ => ?_
  have hk := contrEquiv1_symm_val dot_S4096x64_S4096x1_S64x1_0_0_1_1_n_n 4096 rfl rfl p
  have el : dot_S4096x64_S4096x1_S64x1_0_0_1_1_n_n.lhsIdx (ix2 k u) ((contrEquiv1 dot_S4096x64_S4096x1_S64x1_0_0_1_1_n_n 4096 rfl rfl).symm p) = ix2 p k := funext fun a => Fin.ext (by
    match a with
    | ⟨0, _⟩ => exact (lhs_s1_0 _ _).trans hk
    | ⟨1, _⟩ => exact lhs_s1_1 _ _)
  have er : dot_S4096x64_S4096x1_S64x1_0_0_1_1_n_n.rhsIdx (ix2 k u) ((contrEquiv1 dot_S4096x64_S4096x1_S64x1_0_0_1_1_n_n 4096 rfl rfl).symm p) = ix2 p u := funext fun a => Fin.ext (by
    match a with
    | ⟨0, _⟩ => exact (rhs_s1_0 _ _).trans hk
    | ⟨1, _⟩ => exact rhs_s1_1 _ _)
  rw [el, er]

/-! ## The stages -/

/-- The logits of a slab: its pixels-by-channels matrix times the weights, plus the bias row on every pixel. -/
def kLogits (w : FVec Ideal S512x64 .f32) (b2 : FVec Ideal S1x64 .f32) (xb : FVec Ideal S1x64x64x512 .f32) : FVec Ideal S4096x64 .f32 :=
  addf (matmul dot_S4096x512_S512x64_S4096x64_1_0_0_1_n_n (some .fp32)
      (shapeCast S4096x512 (shapeCast S64x64x512 xb shapeCasts_S1x64x64x512_S64x64x512) shapeCasts_S64x64x512_S4096x512) w
      (constant S4096x64 .f32 0x00000000#32))
    (broadcastTo S4096x64 b2 broadcasts_S1x64_S4096x64)

/-- Each row's maximum, repeated along the row. -/
def kMaxB (f : FVec Ideal S4096x64 .f32) : FVec Ideal S4096x64 .f32 :=
  broadcastTo S4096x64 (shapeCast S4096x1 (multiReduction .maximumf [1] S4096 f 0xFF800000#32 reduces_S4096x64_S4096 (.inl rfl) rfl)
    shapeCasts_S4096_S4096x1) broadcasts_S4096x1_S4096x64

/-- The exponentials of the logits less their row's maximum. -/
def kEx (f : FVec Ideal S4096x64 .f32) : FVec Ideal S4096x64 .f32 := exp (subf f (kMaxB f))

/-- The soft assignment: each exponential times the reciprocal of its row's sum. -/
def kSoft (f : FVec Ideal S4096x64 .f32) : FVec Ideal S4096x64 .f32 :=
  mulf (kEx f) (broadcastTo S4096x64 (divf (broadcast S4096x1 (Scalar.ofBits .f32 0x3F800000#32))
    (shapeCast S4096x1 (multiReduction .add [1] S4096 (kEx f) 0x00000000#32 reduces_S4096x64_S4096 (.inl rfl) rfl) shapeCasts_S4096_S4096x1))
    broadcasts_S4096x1_S4096x64)

/-- The aggregate: sᵀ f over the pixels, plus the transposed centres times each cluster's total assignment. -/
def kAgg (f s : FVec Ideal S4096x64 .f32) (ct : FVec Ideal S64x64 .f32) : FVec Ideal S64x64 .f32 :=
  addf (matmul dot_S4096x64_S4096x64_S64x64_0_0_1_1_n_n none (truncf .bf16 s bitsLt_bf16_f32) (truncf .bf16 f bitsLt_bf16_f32)
      (constant S64x64 .f32 0x00000000#32))
    (mulf ct (broadcastTo S64x64 (matmul dot_S4096x64_S4096x1_S64x1_0_0_1_1_n_n none (truncf .bf16 s bitsLt_bf16_f32)
      (broadcast S4096x1 (Scalar.ofBits .bf16 0x3F80#16)) (constant S64x1 .f32 0x00000000#32)) broadcasts_S64x1_S64x64))

/-- Each row's sum of squares, floored, as a column. -/
def kSq (v : FVec Ideal S64x64 .f32) : FVec Ideal S64x1 .f32 :=
  maximumf (shapeCast S64x1 (multiReduction .add [1] S64 (mulf v v) 0x00000000#32 reduces_S64x64_S64 (.inl rfl) rfl) shapeCasts_S64_S64x1)
    (broadcast S64x1 (Scalar.ofBits .f32 0x2B8CBCCC#32))

/-- Each row times the reciprocal square root of its column entry, the square then laid out as one row. -/
def kRowN (v : FVec Ideal S64x64 .f32) (q : FVec Ideal S64x1 .f32) : FVec Ideal S1x4096 .f32 :=
  shapeCast S1x4096 (mulf v (broadcastTo S64x64 (rsqrt q) broadcasts_S64x1_S64x64)) shapeCasts_S64x64_S1x4096

/-- The whole chain for one slab. -/
def kAll (w : FVec Ideal S512x64 .f32) (b2 : FVec Ideal S1x64 .f32) (ct : FVec Ideal S64x64 .f32)
    (xb : FVec Ideal S1x64x64x512 .f32) : FVec Ideal S1x1x4096 .f32 :=
  k0_pay6 (kRowN (kAgg (kLogits w b2 xb) (kSoft (kLogits w b2 xb)) ct) (kSq (kAgg (kLogits w b2 xb) (kSoft (kLogits w b2 xb)) ct)))
    (mulf (kRowN (kAgg (kLogits w b2 xb) (kSoft (kLogits w b2 xb)) ct) (kSq (kAgg (kLogits w b2 xb) (kSoft (kLogits w b2 xb)) ct)))
      (kRowN (kAgg (kLogits w b2 xb) (kSoft (kLogits w b2 xb)) ct) (kSq (kAgg (kLogits w b2 xb) (kSoft (kLogits w b2 xb)) ct))))

/-- The first slab's two payloads are the chain. -/
theorem first_eq (w : FVec Ideal S512x64 .f32) (b2 : FVec Ideal S1x64 .f32) (ct : FVec Ideal S64x64 .f32)
    (xb : FVec Ideal S1x64x64x512 .f32) :
    k0_pay6 (F := Ideal) (k0_pay4 w b2 ct xb) (k0_pay5 w b2 ct xb) = kAll w (k0_pay2 b2) (k0_pay3 ct) xb := rfl

/-- The second slab's three payloads are the chain. -/
theorem second_eq (w : FVec Ideal S512x64 .f32) (b2 : FVec Ideal S1x64 .f32) (ct : FVec Ideal S64x64 .f32)
    (xb : FVec Ideal S1x64x64x512 .f32) :
    k0_pay1 (F := Ideal) (k0_pay7 w (k0_pay2 b2) (k0_pay3 ct) xb) (k0_pay8 w (k0_pay2 b2) (k0_pay3 ct) xb)
      = kAll w (k0_pay2 b2) (k0_pay3 ct) xb := rfl

theorem pay2_eq (b2 : FVec Ideal S1x64 .f32) : k0_pay2 (F := Ideal) b2 = b2 := shapeCast_self _ _
theorem pay3_eq (ct : FVec Ideal S64x64 .f32) : k0_pay3 (F := Ideal) ct = ct := shapeCast_self _ _

/-! ## The operands by coordinates -/

/-- A slab as a 4096 × 512 matrix: row p is pixel (p / 64, p % 64). -/
def Xs (xb : FVec Ideal S1x64x64x512 .f32) (p : Fin 4096) (c : Fin 512) : EReal := xb (ix4 (0 : Fin 1) (hi p) (lo p) c)
/-- The weights by coordinates. -/
def Ws (w : FVec Ideal S512x64 .f32) (c : Fin 512) (k : Fin 64) : EReal := w (ix2 c k)
/-- The bias row by its coordinate. -/
def Bs (b2 : FVec Ideal S1x64 .f32) (k : Fin 64) : EReal := b2 (ix2 (0 : Fin 1) k)
/-- The centres from their transposed table: C d k is ct k d. -/
def Cs (ct : FVec Ideal S64x64 .f32) (d k : Fin 64) : EReal := ct (ix2 k d)

/-! ## The stages read at an index -/

theorem xmat_apply (xb : FVec Ideal S1x64x64x512 .f32) (p : Fin 4096) (c : Fin 512) :
    shapeCast S4096x512 (shapeCast S64x64x512 xb shapeCasts_S1x64x64x512_S64x64x512) shapeCasts_S64x64x512_S4096x512 (ix2 p c)
      = xb (ix4 (0 : Fin 1) (hi p) (lo p) c) := by
  refine (shapeCast_apply _ shapeCasts_S64x64x512_S4096x512 (ix2 p c) (ix3 (hi p) (lo p) c) ?_).trans ?_
  · rw [Shape.rowMajor_val_three, Shape.rowMajor_val_two]
    show (p.val / 64 * 64 + p.val % 64) * 512 + c.val = p.val * 512 + c.val
    omega
  · exact shapeCast_1abc_abc_apply xb shapeCasts_S1x64x64x512_S64x64x512 (hi p) (lo p) c

theorem kLogits_apply (w : FVec Ideal S512x64 .f32) (b2 : FVec Ideal S1x64 .f32) (xb : FVec Ideal S1x64x64x512 .f32)
    (p : Fin 4096) (k : Fin 64) : kLogits w b2 xb (ix2 p k) = logit (Xs xb) (Ws w) (Bs b2) p k := by
  unfold kLogits logit
  refine (addf_apply _ _ _).trans ?_
  refine congrArg₂ (· + ·) ?_ ?_
  · refine (mm_xw _ w p k).trans ?_
    exact Finset.sum_congr rfl fun c _ => congrArg (· * w (ix2 c k)) (xmat_apply xb p c)
  · exact broadcastTo_1b_ab_apply b2 broadcasts_S1x64_S4096x64 p k

theorem kMaxB_apply (f : FVec Ideal S4096x64 .f32) (p : Fin 4096) (k : Fin 64) :
    kMaxB f (ix2 p k) = rowMax (fun p k => f (ix2 p k)) p := by
  unfold kMaxB rowMax
  exact (bcast_col _ broadcasts_S4096x1_S4096x64 p k).trans
    ((cast_vec_col _ shapeCasts_S4096_S4096x1 p 0).trans (max_row f reduces_S4096x64_S4096 (.inl rfl) rfl p))

theorem kEx_apply (f : FVec Ideal S4096x64 .f32) (p : Fin 4096) (k : Fin 64) :
    kEx f (ix2 p k) = ex (fun p k => f (ix2 p k)) p k := by
  show Ideal.exp (f (ix2 p k) - kMaxB f (ix2 p k)) = Ideal.exp (f (ix2 p k) - rowMax (fun p k => f (ix2 p k)) p)
  rw [kMaxB_apply]

theorem kSoft_apply (f : FVec Ideal S4096x64 .f32) (p : Fin 4096) (k : Fin 64) :
    kSoft f (ix2 p k) = softK (fun p k => f (ix2 p k)) p k := by
  unfold kSoft softK
  refine (mulf_apply _ _ _).trans ?_
  refine congrArg₂ (· * ·) (kEx_apply f p k) ?_
  refine (bcast_col _ broadcasts_S4096x1_S4096x64 p k).trans ?_
  show Ideal.div (Ideal.ofBits .f32 0x3F800000#32)
      (shapeCast S4096x1 (multiReduction .add [1] S4096 (kEx f) 0x00000000#32 reduces_S4096x64_S4096 (.inl rfl) rfl) shapeCasts_S4096_S4096x1 (ix2 p (0 : Fin 1)))
    = Ideal.div 1 (esum (fun p k => f (ix2 p k)) p)
  rw [ofBits_one_f32]
  refine congrArg (Ideal.div 1) ?_
  refine (cast_vec_col _ shapeCasts_S4096_S4096x1 p 0).trans ?_
  refine (sum_row (kEx f) reduces_S4096x64_S4096 (.inl rfl) rfl p).trans ?_
  exact Finset.sum_congr rfl fun k _ => kEx_apply f p k

theorem kAgg_apply (f s : FVec Ideal S4096x64 .f32) (ct : FVec Ideal S64x64 .f32) (k d : Fin 64) :
    kAgg f s ct (ix2 k d)
      = (∑ p : Fin 4096, s (ix2 p k) * f (ix2 p d)) + ct (ix2 k d) * (∑ p : Fin 4096, s (ix2 p k)) := by
  unfold kAgg
  refine (addf_apply _ _ _).trans ?_
  refine congrArg₂ (· + ·) ?_ ?_
  · exact mm_sf (truncf .bf16 s bitsLt_bf16_f32) (truncf .bf16 f bitsLt_bf16_f32) k d
  · refine (mulf_apply _ _ _).trans ?_
    refine congrArg (ct (ix2 k d) * ·) ?_
    refine (bcast_col _ broadcasts_S64x1_S64x64 k d).trans ?_
    refine (mm_s1 (truncf .bf16 s bitsLt_bf16_f32) _ k 0).trans ?_
    refine Finset.sum_congr rfl fun p _ => ?_
    show s (ix2 p k) * Ideal.ofBits .bf16 0x3F80#16 = s (ix2 p k)
    rw [ofBits_one_bf16, mul_one]

theorem kSq_apply (v : FVec Ideal S64x64 .f32) (k : Fin 64) (u : Fin 1) :
    kSq v (ix2 k u) = max (∑ d : Fin 64, v (ix2 k d) * v (ix2 k d)) eps := by
  unfold kSq
  refine (maximumf_apply _ _ _).trans ?_
  refine congrArg₂ max ?_ rfl
  refine (cast_vec_col _ shapeCasts_S64_S64x1 k u).trans ?_
  exact sum_row (mulf v v) reduces_S64x64_S64 (.inl rfl) rfl k

theorem kRowN_apply (v : FVec Ideal S64x64 .f32) (q : FVec Ideal S64x1 .f32) (u : Fin 1) (j : Fin 4096) :
    kRowN v q (ix2 u j) = v (ix2 (hi j) (lo j)) * Ideal.rsqrt (q (ix2 (hi j) (0 : Fin 1))) := by
  unfold kRowN
  refine (cast_square_row _ shapeCasts_S64x64_S1x4096 u j).trans ?_
  refine (mulf_apply _ _ _).trans ?_
  refine congrArg (v (ix2 (hi j) (lo j)) * ·) ?_
  exact bcast_col _ broadcasts_S64x1_S64x64 (hi j) (lo j)

theorem pay6_apply (u : FVec Ideal S1x4096 .f32) (j : Fin 4096) :
    k0_pay6 (F := Ideal) u (mulf u u) (ix3 (0 : Fin 1) (0 : Fin 1) j)
      = u (ix2 (0 : Fin 1) j)
        * Ideal.rsqrt (max (∑ j' : Fin 4096, u (ix2 (0 : Fin 1) j') * u (ix2 (0 : Fin 1) j')) eps) := by
  unfold k0_pay6
  refine (cast_vec_11n _ shapeCasts_S4096_S1x1x4096 0 0 j).trans ?_
  refine (shapeCast_1a_a_apply _ shapeCasts_S1x4096_S4096 j).trans ?_
  refine (mulf_apply _ _ _).trans ?_
  refine congrArg (u (ix2 (0 : Fin 1) j) * ·) ?_
  refine (bcast_col _ broadcasts_S1x1_S1x4096 0 j).trans ?_
  refine congrArg (fun t => Ideal.rsqrt (max t eps)) ?_
  refine (shapeCast_a_1a_apply _ shapeCasts_S1_S1x1 0 0).trans ?_
  exact sum_row (mulf u u) reduces_S1x4096_S1 (.inl rfl) rfl 0

/-! ## The chain is the layer -/

theorem agg_eq (w : FVec Ideal S512x64 .f32) (b2 : FVec Ideal S1x64 .f32) (ct : FVec Ideal S64x64 .f32)
    (xb : FVec Ideal S1x64x64x512 .f32) (k d : Fin 64) :
    kAgg (kLogits w b2 xb) (kSoft (kLogits w b2 xb)) ct (ix2 k d) = aggK (logit (Xs xb) (Ws w) (Bs b2)) (Cs ct) k d := by
  have hl : (fun p k => kLogits w b2 xb (ix2 p k)) = logit (Xs xb) (Ws w) (Bs b2) :=
    funext fun p => funext fun k => kLogits_apply w b2 xb p k
  have hs : ∀ p k, kSoft (kLogits w b2 xb) (ix2 p k) = softK (logit (Xs xb) (Ws w) (Bs b2)) p k := fun p k => by
    rw [kSoft_apply, hl]
  refine (kAgg_apply _ _ ct k d).trans ?_
  unfold aggK Cs
  refine congrArg₂ (· + ·) ?_ ?_
  · exact Finset.sum_congr rfl fun p _ => by rw [hs p k, kLogits_apply]
  · exact congrArg (ct (ix2 k d) * ·) (Finset.sum_congr rfl fun p _ => hs p k)

theorem rowN_eq (w : FVec Ideal S512x64 .f32) (b2 : FVec Ideal S1x64 .f32) (ct : FVec Ideal S64x64 .f32)
    (xb : FVec Ideal S1x64x64x512 .f32) (j : Fin 4096) :
    kRowN (kAgg (kLogits w b2 xb) (kSoft (kLogits w b2 xb)) ct) (kSq (kAgg (kLogits w b2 xb) (kSoft (kLogits w b2 xb)) ct))
        (ix2 (0 : Fin 1) j)
      = flat (aggK (logit (Xs xb) (Ws w) (Bs b2)) (Cs ct)) j := by
  refine (kRowN_apply _ _ 0 j).trans ?_
  unfold flat rowNormed
  refine congrArg₂ (· * ·) (agg_eq w b2 ct xb (hi j) (lo j)) ?_
  refine congrArg Ideal.rsqrt ?_
  refine (kSq_apply _ (hi j) 0).trans ?_
  refine congrArg (max · eps) ?_
  exact Finset.sum_congr rfl fun d _ => by rw [agg_eq]

/-- The chain at flat position j is the layer of the slab in the split spelling. -/
theorem kAll_apply (w : FVec Ideal S512x64 .f32) (b2 : FVec Ideal S1x64 .f32) (ct : FVec Ideal S64x64 .f32)
    (xb : FVec Ideal S1x64x64x512 .f32) (j : Fin 4096) :
    kAll w b2 ct xb (ix3 (0 : Fin 1) (0 : Fin 1) j) = GbK (Xs xb) (Ws w) (Bs b2) (Cs ct) j := by
  unfold kAll
  refine (pay6_apply _ j).trans ?_
  unfold GbK out
  refine congrArg₂ (· * ·) (rowN_eq w b2 ct xb j) ?_
  refine congrArg (fun t => Ideal.rsqrt (max t eps)) ?_
  exact Finset.sum_congr rfl fun j' _ => by rw [rowN_eq]

/-- The first slab's store, at flat position j. -/
theorem first_apply (w : FVec Ideal S512x64 .f32) (b2 : FVec Ideal S1x64 .f32) (ct : FVec Ideal S64x64 .f32)
    (xb : FVec Ideal S1x64x64x512 .f32) (j : Fin 4096) :
    k0_pay6 (F := Ideal) (k0_pay4 w b2 ct xb) (k0_pay5 w b2 ct xb) (ix3 (0 : Fin 1) (0 : Fin 1) j)
      = GbK (Xs xb) (Ws w) (Bs b2) (Cs ct) j := by
  rw [first_eq, pay2_eq, pay3_eq]
  exact kAll_apply w b2 ct xb j

/-- The second slab's store, at flat position j. -/
theorem second_apply (w : FVec Ideal S512x64 .f32) (b2 : FVec Ideal S1x64 .f32) (ct : FVec Ideal S64x64 .f32)
    (xb : FVec Ideal S1x64x64x512 .f32) (j : Fin 4096) :
    k0_pay1 (F := Ideal) (k0_pay7 w (k0_pay2 b2) (k0_pay3 ct) xb) (k0_pay8 w (k0_pay2 b2) (k0_pay3 ct) xb)
        (ix3 (0 : Fin 1) (0 : Fin 1) j)
      = GbK (Xs xb) (Ws w) (Bs b2) (Cs ct) j := by
  rw [second_eq, pay2_eq, pay3_eq]
  exact kAll_apply w b2 ct xb j

end Cert.KernelIdeal.PayVal

end
-- ==== Proof.Algebra.lean ====
/-
  The split and the direct spelling of the aggregate are the same numbers when every logit and every centre is real.

  With real logits a row's maximum is a real number, so each exponential is a positive real and a row's sum of
  exponentials is a positive real, in particular not zero. Off zero the quotient e / S is the product e · S⁻¹ and the
  reciprocal 1 / S is S⁻¹, so the two spellings of the soft assignment are one real number s p k. Then
  Σ_p s p k · (f p d + C d k) = Σ_p s p k · f p d + C d k · Σ_p s p k is distributivity and commutativity in ℝ;
  the same identity fails on the extended reals at infinite entries, which is why reality of the entries is asked.
-/
import proofs.«411206_j48189533061458_3_alg».proof.Proof.Spec

noncomputable section

open scoped BigOperators

namespace Cert.NetVlad

open Idealize.ShloMosaic

/-- A finite sum of real numbers, taken in the extended reals, is the real sum. -/
theorem coe_sum {ι : Type*} (s : Finset ι) (g : ι → ℝ) :
    (∑ i ∈ s, (g i : EReal)) = ((∑ i ∈ s, g i : ℝ) : EReal) := by
  classical
  induction s using Finset.induction_on with
  | empty => simp
  | insert a s ha ih => rw [Finset.sum_insert ha, Finset.sum_insert ha, ih, EReal.coe_add]

/-- The maximum of finitely many reals, folded from −∞, is −∞ only over the empty set; otherwise it is a real. -/
theorem fold_max_real (g : Fin 64 → ℝ) (s : Finset (Fin 64)) :
    s = ∅ ∨ ∃ r : ℝ, s.fold max ⊥ (fun k => (g k : EReal)) = (r : EReal) := by
  classical
  induction s using Finset.induction_on with
  | empty => exact Or.inl rfl
  | insert a s ha ih =>
    refine Or.inr ?_
    rw [Finset.fold_insert ha]
    rcases ih with rfl | ⟨r, hr⟩
    · exact ⟨g a, by simp⟩
    · exact ⟨max (g a) r, by rw [hr]; exact (EReal.coe_strictMono.monotone.map_max).symm⟩

section
variable (f : Fin 4096 → Fin 64 → EReal)

/-- A row of real logits has a real maximum. -/
theorem rowMax_real (hf : ∀ p k, ∃ r : ℝ, f p k = (r : EReal)) (p : Fin 4096) :
    ∃ r : ℝ, rowMax f p = (r : EReal) := by
  choose f' hf' using hf
  have e : f p = fun k => ((f' p k : ℝ) : EReal) := funext (hf' p)
  unfold rowMax
  rw [e]
  rcases fold_max_real (f' p) Finset.univ with h | h
  · exact absurd h Finset.univ_nonempty.ne_empty
  · exact h

/-- Each shifted exponential of a real row is a positive real. -/
theorem ex_real (hf : ∀ p k, ∃ r : ℝ, f p k = (r : EReal)) (p : Fin 4096) (k : Fin 64) :
    ∃ r : ℝ, 0 < r ∧ ex f p k = (r : EReal) := by
  obtain ⟨a, ha⟩ := hf p k
  obtain ⟨m, hm⟩ := rowMax_real f hf p
  refine ⟨Real.exp (a - m), Real.exp_pos _, ?_⟩
  unfold ex
  rw [ha, hm, ← EReal.coe_sub]
  rfl

/-- The sum of a real row's exponentials is a positive real. -/
theorem esum_real (hf : ∀ p k, ∃ r : ℝ, f p k = (r : EReal)) (p : Fin 4096) :
    ∃ r : ℝ, 0 < r ∧ esum f p = (r : EReal) := by
  choose e he using ex_real f hf p
  refine ⟨∑ k, e k, Finset.sum_pos (fun k _ => (he k).1) Finset.univ_nonempty, ?_⟩
  unfold esum
  rw [← coe_sum]
  exact Finset.sum_congr rfl fun k _ => (he k).2

/-- Over a real row both spellings of the soft assignment are one real number. -/
theorem soft_real (hf : ∀ p k, ∃ r : ℝ, f p k = (r : EReal)) (p : Fin 4096) (k : Fin 64) :
    ∃ r : ℝ, softK f p k = (r : EReal) ∧ softR f p k = (r : EReal) := by
  obtain ⟨e, _, he⟩ := ex_real f hf p k
  obtain ⟨S, hS, hSe⟩ := esum_real f hf p
  have hne : esum f p ≠ 0 := by
    rw [hSe]
    exact_mod_cast hS.ne'
  refine ⟨e * S⁻¹, ?_, ?_⟩
  · unfold softK Ideal.div
    rw [if_neg hne, one_mul, he, hSe, ← EReal.coe_inv, ← EReal.coe_mul]
  · unfold softR Ideal.div
    rw [if_neg hne, he, hSe, ← EReal.coe_inv, ← EReal.coe_mul]

/-- The split aggregate is the direct one over real logits and real centres. -/
theorem aggK_eq_aggR (C : Fin 64 → Fin 64 → EReal) (hf : ∀ p k, ∃ r : ℝ, f p k = (r : EReal))
    (hC : ∀ d k, ∃ r : ℝ, C d k = (r : EReal)) : aggK f C = aggR f C := by
  funext k d
  choose s hs using fun p => soft_real f hf p k
  choose f' hf' using hf
  obtain ⟨c, hc⟩ := hC d k
  unfold aggK aggR
  have h1 : ∀ p, softK f p k * f p d = ((s p * f' p d : ℝ) : EReal) := fun p => by
    rw [(hs p).1, hf' p d, ← EReal.coe_mul]
  have h2 : ∀ p, softK f p k = ((s p : ℝ) : EReal) := fun p => (hs p).1
  have h3 : ∀ p, softR f p k * (f p d + C d k) = ((s p * (f' p d + c) : ℝ) : EReal) := fun p => by
    rw [(hs p).2, hf' p d, hc, ← EReal.coe_add, ← EReal.coe_mul]
  rw [Finset.sum_congr rfl fun p _ => h1 p, Finset.sum_congr rfl fun p _ => h2 p,
    Finset.sum_congr rfl fun p _ => h3 p, hc, coe_sum, coe_sum, coe_sum, ← EReal.coe_mul, ← EReal.coe_add]
  refine congrArg _ ?_
  rw [Finset.mul_sum, ← Finset.sum_add_distrib]
  exact Finset.sum_congr rfl fun p _ => by ring

end

/-- Real pixels, weights and bias give real logits. -/
theorem logit_real (X : Fin 4096 → Fin 512 → EReal) (W : Fin 512 → Fin 64 → EReal) (b : Fin 64 → EReal)
    (hX : ∀ p c, ∃ r : ℝ, X p c = (r : EReal)) (hW : ∀ c k, ∃ r : ℝ, W c k = (r : EReal))
    (hb : ∀ k, ∃ r : ℝ, b k = (r : EReal)) (p : Fin 4096) (k : Fin 64) :
    ∃ r : ℝ, logit X W b p k = (r : EReal) := by
  choose X' hX' using hX
  choose W' hW' using hW
  obtain ⟨b', hb'⟩ := hb k
  refine ⟨(∑ c, X' p c * W' c k) + b', ?_⟩
  unfold logit
  rw [Finset.sum_congr rfl fun c _ => show X p c * W c k = ((X' p c * W' c k : ℝ) : EReal) by
    rw [hX' p c, hW' c k, ← EReal.coe_mul], coe_sum, hb', ← EReal.coe_add]

/-- One batch element's result is the same in both spellings when every entry of its inputs is real. -/
theorem GbK_eq_GbR (X : Fin 4096 → Fin 512 → EReal) (W : Fin 512 → Fin 64 → EReal) (b : Fin 64 → EReal)
    (C : Fin 64 → Fin 64 → EReal)
    (hX : ∀ p c, ∃ r : ℝ, X p c = (r : EReal)) (hW : ∀ c k, ∃ r : ℝ, W c k = (r : EReal))
    (hb : ∀ k, ∃ r : ℝ, b k = (r : EReal)) (hC : ∀ d k, ∃ r : ℝ, C d k = (r : EReal)) :
    GbK X W b C = GbR X W b C := by
  unfold GbK GbR
  rw [aggK_eq_aggR (logit X W b) C (logit_real X W b hX hW hb) hC]

end Cert.NetVlad

end
-- ==== Proof.KernelValue.lean ====
/-
  The kernel's result array, after the run, is the layer of every batch element.

  Grid point t stages batch elements 2t and 2t + 1 of the pixel array, the whole weights, the bias as one row and the
  centres transposed, and its body stores row r of the output block [1, 2, 4096] from slab r of the pixel block. So the
  block it writes back is one function of the block index: row r is the layer of batch element 2t + r. The eight
  blocks tile the [8, 2, 4096] array, which therefore ends holding, at (q, r, j), the layer of batch element 2q + r at
  flat position j; the reshape after the region reads that as row 2q + r of [16, 4096]. The bias row is the bias
  reshaped and the transposed centres are the reshaped centres transposed, so in the arguments' own coordinates the
  operands are the pixels, weights, bias and centres of the specification. With every entry real the split spelling
  the body computes is the direct one.
-/
import proofs.«411206_j48189533061458_3_alg».proof.Proof.Gen.KernelIdeal.Frame
import proofs.«411206_j48189533061458_3_alg».proof.Proof.PayStages
import proofs.«411206_j48189533061458_3_alg».proof.Proof.Algebra
import Idealize.ShloMosaic.Lib.Pipeline.Value
import Idealize.ShloMosaic.Lib.StableHlo.Run

set_option maxRecDepth 16384

noncomputable section

open scoped BigOperators

namespace Cert.KernelIdeal.KVal

open Cert.KernelIdeal Cert.KernelIdeal.Gen Cert.KernelIdeal.PayVal Cert.NetVlad
open Idealize.ShloMosaic Idealize.ShloMosaic.TcCoe Idealize.SL.Sem Idealize.ShloMosaic.ValueIdx
open Idealize.ShloMosaic.Pipeline (Dat)

/-! ## One output block as a function of its index -/

/-- Row r of the output block is the layer of slab r of the pixel block. -/
def Gblk (x0 : FVec Ideal S2x64x64x512 .f32) (x1 : FVec Ideal S512x64 .f32) (x2 : FVec Ideal S1x64 .f32)
    (x3 : FVec Ideal S64x64 .f32) : S1x2x4096.Idx → EReal :=
  fun y => GbK (fun p c => x0 (ix4 (⟨(y 1).val, (y 1).isLt⟩ : Fin 2) (hi p) (lo p) c)) (Ws x1) (Bs x2) (Cs x3) ⟨(y 2).val, (y 2).isLt⟩

theorem Gblk_at (x0 : FVec Ideal S2x64x64x512 .f32) (x1 : FVec Ideal S512x64 .f32) (x2 : FVec Ideal S1x64 .f32)
    (x3 : FVec Ideal S64x64 .f32) (r : Fin 2) (j : Fin 4096) (y : S1x2x4096.Idx) (h1 : (y 1).val = r.val) (h2 : (y 2).val = j.val) :
    Gblk x0 x1 x2 x3 y = GbK (fun p c => x0 (ix4 r (hi p) (lo p) c)) (Ws x1) (Bs x2) (Cs x3) j := by
  unfold Gblk
  have e1 : (⟨(y 1).val, (y 1).isLt⟩ : Fin 2) = r := Fin.ext h1
  have e2 : (⟨(y 2).val, (y 2).isLt⟩ : Fin 4096) = j := Fin.ext h2
  rw [e1, e2]

theorem hzz2 : (![0, 0] : Fin 2 → Nat) = fun _ => 0 := funext fun a => by fin_cases a <;> rfl

/-- The store of the first slab's result agrees with the block function on its rectangle (row 0). -/
theorem piece_first (x0 : FVec Ideal S2x64x64x512 .f32) (x1 : FVec Ideal S512x64 .f32) (x2 : FVec Ideal S1x64 .f32)
    (x3 : FVec Ideal S64x64 .f32) (x : S1x1x4096.Idx) :
    k0_pay6 (F := Ideal) (k0_pay4 (View.ld x1 r0_0) (View.ld x2 r0_1) (View.ld x3 r0_2) (View.ld x0 r0_3))
        (k0_pay5 (View.ld x1 r0_0) (View.ld x2 r0_1) (View.ld x3 r0_2) (View.ld x0 r0_3)) x
      = Gblk x0 x1 x2 x3 (r0_4.emb x) := by
  obtain ⟨u, u', j, rfl⟩ : ∃ (u u' : Fin 1) (j : Fin 4096), x = ix3 u u' j := ⟨x 0, x 1, x 2, eq_ix3 x⟩
  obtain rfl : u = 0 := Subsingleton.elim _ _
  obtain rfl : u' = 0 := Subsingleton.elim _ _
  rw [View.ld_unit_zero (S := S512x64) hzz2, View.ld_unit_zero (S := S1x64) hzz2, View.ld_unit_zero (S := S64x64) hzz2]
  refine (first_apply x1 x2 x3 _ j).trans ?_
  refine Eq.trans ?_ (Gblk_at x0 x1 x2 x3 0 j (r0_4.emb (ix3 (0 : Fin 1) (0 : Fin 1) j)) rfl (by
    show 0 + 1 * j.val = j.val; omega)).symm
  refine congrArg (fun X => GbK X (Ws x1) (Bs x2) (Cs x3) j) (funext fun p => funext fun c => congrArg x0 (funext fun a => Fin.ext ?_))
  match a with
  | ⟨0, _⟩ => rfl
  | ⟨1, _⟩ => show 0 + 1 * (hi p).val = (hi p).val; omega
  | ⟨2, _⟩ => show 0 + 1 * (lo p).val = (lo p).val; omega
  | ⟨3, _⟩ => show 0 + 1 * c.val = c.val; omega

/-- The store of the second slab's result agrees with the block function on its rectangle (row 1). -/
theorem piece_second (x0 : FVec Ideal S2x64x64x512 .f32) (x1 : FVec Ideal S512x64 .f32) (x2 : FVec Ideal S1x64 .f32)
    (x3 : FVec Ideal S64x64 .f32) (x : S1x1x4096.Idx) :
    k0_pay1 (F := Ideal) (k0_pay7 (View.ld x1 r0_0) (k0_pay2 (View.ld x2 r0_1)) (k0_pay3 (View.ld x3 r0_2)) (View.ld x0 r0_5))
        (k0_pay8 (View.ld x1 r0_0) (k0_pay2 (View.ld x2 r0_1)) (k0_pay3 (View.ld x3 r0_2)) (View.ld x0 r0_5)) x
      = Gblk x0 x1 x2 x3 (r0_6.emb x) := by
  obtain ⟨u, u', j, rfl⟩ : ∃ (u u' : Fin 1) (j : Fin 4096), x = ix3 u u' j := ⟨x 0, x 1, x 2, eq_ix3 x⟩
  obtain rfl : u = 0 := Subsingleton.elim _ _
  obtain rfl : u' = 0 := Subsingleton.elim _ _
  rw [View.ld_unit_zero (S := S512x64) hzz2, View.ld_unit_zero (S := S1x64) hzz2, View.ld_unit_zero (S := S64x64) hzz2]
  refine (second_apply x1 x2 x3 _ j).trans ?_
  refine Eq.trans ?_ (Gblk_at x0 x1 x2 x3 1 j (r0_6.emb (ix3 (0 : Fin 1) (0 : Fin 1) j)) rfl (by
    show 0 + 1 * j.val = j.val; omega)).symm
  refine congrArg (fun X => GbK X (Ws x1) (Bs x2) (Cs x3) j) (funext fun p => funext fun c => congrArg x0 (funext fun a => Fin.ext ?_))
  match a with
  | ⟨0, _⟩ => rfl
  | ⟨1, _⟩ => show 0 + 1 * (hi p).val = (hi p).val; omega
  | ⟨2, _⟩ => show 0 + 1 * (lo p).val = (lo p).val; omega
  | ⟨3, _⟩ => show 0 + 1 * c.val = c.val; omega

/-- What the body leaves in the output block is the block function. -/
theorem out_apply (x0 : FVec Ideal S2x64x64x512 .f32) (x1 : FVec Ideal S512x64 .f32) (x2 : FVec Ideal S1x64 .f32)
    (x3 : FVec Ideal S64x64 .f32) (y : S1x2x4096.Idx) : out0_4 (F := Ideal) x0 x1 x2 x3 y = Gblk x0 x1 x2 x3 y := by
  unfold out0_4
  refine View.canon_apply_of_pieces (Val := Elt Ideal) (e := .f32) (Gblk x0 x1 x2 x3) _ ?_ y (cover0_4 _ _ y)
  intro p hp
  rcases List.mem_cons.mp hp with rfl | hp
  · exact fun x => piece_second x0 x1 x2 x3 x
  · rcases List.mem_singleton.mp hp with rfl
    exact fun x => piece_first x0 x1 x2 x3 x

/-! ## The windows' blocks, read back to the arguments -/

section
variable (m : (ℓ : Loc nD τ sig) → Buf (Elt Ideal) ℓ) (ρ : Dev nD → PrngReg)

/-- The index maps over the grid: the pixel and output windows move with the point on their first axis; the others
    stay at block 0. -/
theorem idx_facts : ∀ t : Fin cfg0.N, win0_0.index t (0 : Fin 4) = t.val ∧ win0_0.index t (1 : Fin 4) = 0
    ∧ win0_0.index t (2 : Fin 4) = 0 ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- The bias row the region finds is the bias reshaped. -/
theorem V_v0 (c : Dev nD) :
    V m c main_v0 = shapeCast S1x64 (m ((c : Thread nD τ).loc main_arg2)) shapeCasts_S64_S1x64 := by
  show StableHlo.after hostOps0 (fun b => m (c, b)) (Proc.devRef .tc main_v0) = _
  after_results
  rfl

/-- The transposed centres the region finds are the centres reshaped to a square and transposed. -/
theorem V_v2 (c : Dev nD) :
    V m c main_v2 = transpose S64x64 [1, 0] (shapeCast S64x64 (m ((c : Thread nD τ).loc main_arg3)) shapeCasts_S1x1x1x64x64_S64x64)
      transposes_S64x64_S64x64_1_0 := by
  show StableHlo.after hostOps0 (fun b => m (c, b)) (Proc.devRef .tc main_v2) = _
  after_results
  rfl

/-- Slab r of the pixel block at point t is batch element 2t + r. -/
theorem X_iblk (c : Dev nD) (t : Fin cfg0.N) (r : Fin 2) (bb : Fin 16) (hb : bb.val = 2 * t.val + r.val) :
    (fun (p : Fin 4096) (ch : Fin 512) => iblk m c 0 t (ix4 r (hi p) (lo p) ch))
      = Xof (m ((c : Thread nD τ).loc main_arg0)) bb := by
  funext p ch
  show V m c main_arg0 (((cfg0.win 0).blk t).view.emb (ix4 r (hi p) (lo p) ch)) = _
  rw [V_main_arg0]
  unfold Xof
  refine congrArg _ (funext fun a => Fin.ext ?_)
  obtain ⟨e0, e1, e2, e3, -⟩ := idx_facts t
  match a with
  | ⟨0, _⟩ => show win0_0.index t (0 : Fin 4) * 2 + 1 * r.val = bb.val; omega
  | ⟨1, _⟩ => show win0_0.index t (1 : Fin 4) * 64 + 1 * (hi p).val = (hi p).val; omega
  | ⟨2, _⟩ => show win0_0.index t (2 : Fin 4) * 64 + 1 * (lo p).val = (lo p).val; omega
  | ⟨3, _⟩ => show win0_0.index t (3 : Fin 4) * 512 + 1 * ch.val = ch.val; omega

/-- The weights block is the weights. -/
theorem W_iblk (c : Dev nD) (t : Fin cfg0.N) : Ws (iblk m c 1 t) = Wof (m ((c : Thread nD τ).loc main_arg1)) := by
  funext ch k
  show V m c main_arg1 (((cfg0.win 1).blk t).view.emb (ix2 ch k)) = _
  rw [V_main_arg1]
  unfold Wof
  refine congrArg _ (funext fun a => Fin.ext ?_)
  obtain ⟨-, -, -, -, e0, e1, -⟩ := idx_facts t
  match a with
  | ⟨0, _⟩ => show win0_1.index t (0 : Fin 2) * 512 + 1 * ch.val = ch.val; omega
  | ⟨1, _⟩ => show win0_1.index t (1 : Fin 2) * 64 + 1 * k.val = k.val; omega

/-- The bias-row block is the bias. -/
theorem B_iblk (c : Dev nD) (t : Fin cfg0.N) : Bs (iblk m c 2 t) = bof (m ((c : Thread nD τ).loc main_arg2)) := by
  funext k
  show V m c main_v0 (((cfg0.win 2).blk t).view.emb (ix2 (0 : Fin 1) k)) = _
  rw [V_v0]
  unfold bof
  have e : ((cfg0.win 2).blk t).view.emb (ix2 (0 : Fin 1) k) = ix2 (0 : Fin 1) k := funext fun a => Fin.ext (by
    obtain ⟨-, -, -, -, -, -, e0, e1, -⟩ := idx_facts t
    match a with
    | ⟨0, _⟩ => show win0_2.index t (0 : Fin 2) * 1 + 1 * 0 = 0; omega
    | ⟨1, _⟩ => show win0_2.index t (1 : Fin 2) * 64 + 1 * k.val = k.val; omega)
  rw [e]
  exact shapeCast_a_1a_apply _ shapeCasts_S64_S1x64 0 k

/-- The transposed-centres block gives back the centres. -/
theorem C_iblk (c : Dev nD) (t : Fin cfg0.N) : Cs (iblk m c 3 t) = Cof (m ((c : Thread nD τ).loc main_arg3)) := by
  funext d k
  show V m c main_v2 (((cfg0.win 3).blk t).view.emb (ix2 k d)) = _
  rw [V_v2]
  unfold Cof
  have e : ((cfg0.win 3).blk t).view.emb (ix2 k d) = ix2 k d := funext fun a => Fin.ext (by
    obtain ⟨-, -, -, -, -, -, -, -, e0, e1, -⟩ := idx_facts t
    match a with
    | ⟨0, _⟩ => show win0_3.index t (0 : Fin 2) * 64 + 1 * k.val = k.val; omega
    | ⟨1, _⟩ => show win0_3.index t (1 : Fin 2) * 64 + 1 * d.val = d.val; omega)
  rw [e]
  refine (transpose_ix2_apply _ transposes_S64x64_S64x64_1_0 k d).trans ?_
  exact shapeCast_apply _ shapeCasts_S1x1x1x64x64_S64x64 (ix2 d k) (ix5 (0 : Fin 1) (0 : Fin 1) (0 : Fin 1) d k) (by
    rw [Shape.rowMajor_val_five, Shape.rowMajor_val_two]
    show (((0 * 1 + 0) * 1 + 0) * 64 + d.val) * 64 + k.val = d.val * 64 + k.val
    omega)

/-! ## The array after the run -/

/-- The result array [8, 2, 4096]: at (q, r, j), the layer of batch element 2q + r at flat position j. -/
def Garr (c : Dev nD) : S8x2x4096.Idx → EReal := fun i =>
  GbK (Xof (m ((c : Thread nD τ).loc main_arg0)) ⟨2 * (i 0).val + (i 1).val, by
      have h0 : (i 0).val < 8 := (i 0).isLt
      have h1 : (i 1).val < 2 := (i 1).isLt
      omega⟩)
    (Wof (m ((c : Thread nD τ).loc main_arg1))) (bof (m ((c : Thread nD τ).loc main_arg2)))
    (Cof (m ((c : Thread nD τ).loc main_arg3))) ⟨(i 2).val, (i 2).isLt⟩

theorem Garr_at (c : Dev nD) (bb : Fin 16) (j : Fin 4096) (i : S8x2x4096.Idx) (h1 : 2 * (i 0).val + (i 1).val = bb.val)
    (h2 : (i 2).val = j.val) :
    Garr m c i = GbK (Xof (m ((c : Thread nD τ).loc main_arg0)) bb) (Wof (m ((c : Thread nD τ).loc main_arg1)))
      (bof (m ((c : Thread nD τ).loc main_arg2))) (Cof (m ((c : Thread nD τ).loc main_arg3))) j := by
  unfold Garr
  have e1 : (⟨2 * (i 0).val + (i 1).val, by
      have h0 : (i 0).val < 8 := (i 0).isLt
      have h1 : (i 1).val < 2 := (i 1).isLt
      omega⟩ : Fin 16) = bb := Fin.ext h1
  have e2 : (⟨(i 2).val, (i 2).isLt⟩ : Fin 4096) = j := Fin.ext h2
  rw [e1, e2]

/-- WHAT POINT t WRITES BACK is block t of the result array. -/
theorem flushed4_eq (c : Dev nD) (t : Fin cfg0.N) :
    (dats m 0 c).flushed 4 t = ((cfg0.win 4).blk t).view.read (Elt Ideal) (Garr m c) := by
  show (cfg0.win 4).cut (grid0.coords t) ((dats m 0 c).after 4 t) = _
  rw [after0_4]
  funext y
  show out0_4 (iblk m c 0 t) (iblk m c 1 t) (iblk m c 2 t) (iblk m c 3 t) y = Garr m c (((cfg0.win 4).blk t).view.emb y)
  obtain ⟨u, r, j, rfl⟩ : ∃ (u : Fin 1) (r : Fin 2) (j : Fin 4096), y = ix3 u r j := ⟨y 0, y 1, y 2, eq_ix3 y⟩
  have hu : u.val = 0 := by omega
  have ht : t.val < 8 := lt_of_lt_of_eq t.isLt N_0
  obtain ⟨-, -, -, -, -, -, -, -, -, -, e0, e1, e2⟩ := idx_facts t
  refine (out_apply _ _ _ _ _).trans ((Gblk_at _ _ _ _ r j _ rfl rfl).trans ?_)
  refine Eq.trans ?_ (Garr_at m c ⟨2 * t.val + r.val, by have := r.isLt; omega⟩ j _ ?_ ?_).symm
  · rw [X_iblk m c t r ⟨2 * t.val + r.val, by have := r.isLt; omega⟩ rfl, W_iblk, B_iblk, C_iblk]
  · show 2 * (win0_4.index t (0 : Fin 3) * 1 + 1 * u.val) + (win0_4.index t (1 : Fin 3) * 2 + 1 * r.val) = 2 * t.val + r.val
    omega
  · show win0_4.index t (2 : Fin 3) * 4096 + 1 * j.val = j.val
    omega

/-- An index of the array is in point t's block iff each coordinate is in the block's range on its axis. -/
theorem mem_blk4 (t : Fin cfg0.N) (i : S8x2x4096.Idx) :
    i ∈ ((cfg0.win 4).blk t).view.set ↔ ∀ a : Fin 3, win0_4.index t a * S1x2x4096.size a ≤ (i a).val
      ∧ (i a).val < win0_4.index t a * S1x2x4096.size a + S1x2x4096.size a := by
  show i ∈ ((View.whole main_v3).slice (win0_4.rect t)).set ↔ _
  rw [View.set_slice_whole, Rect.mem_set_unit]
  exact Iff.rfl

/-- Every index of the array is in the block of the point named by its first coordinate. -/
theorem cover4 (i : S8x2x4096.Idx) : ∃ t : Fin cfg0.N, (cfg0.win 4).flush t = true ∧ i ∈ ((cfg0.win 4).blk t).view.set := by
  have h0 : (i 0).val < 8 := (i 0).isLt
  have h1 : (i 1).val < 2 := (i 1).isLt
  have h2 : (i 2).val < 4096 := (i 2).isLt
  have hN : (i 0).val < cfg0.N := lt_of_lt_of_eq h0 N_0.symm
  refine ⟨⟨(i 0).val, hN⟩, flush0_4 _, ?_⟩
  rw [mem_blk4]
  obtain ⟨-, -, -, -, -, -, -, -, -, -, e0, e1, e2⟩ := idx_facts ⟨(i 0).val, hN⟩
  have e0' : win0_4.index ⟨(i 0).val, hN⟩ (0 : Fin 3) = (i 0).val := e0
  intro a
  match a with
  | ⟨0, _⟩ =>
    show win0_4.index ⟨(i 0).val, _⟩ (0 : Fin 3) * 1 ≤ (i 0).val ∧ (i 0).val < win0_4.index ⟨(i 0).val, _⟩ (0 : Fin 3) * 1 + 1
    omega
  | ⟨1, _⟩ =>
    show win0_4.index ⟨(i 0).val, _⟩ (1 : Fin 3) * 2 ≤ (i 1).val ∧ (i 1).val < win0_4.index ⟨(i 0).val, _⟩ (1 : Fin 3) * 2 + 2
    omega
  | ⟨2, _⟩ =>
    show win0_4.index ⟨(i 0).val, _⟩ (2 : Fin 3) * 4096 ≤ (i 2).val ∧ (i 2).val < win0_4.index ⟨(i 0).val, _⟩ (2 : Fin 3) * 4096 + 4096
    omega

/-- THE ARRAY after the run. -/
theorem final4 (c : Dev nD) : (dats m 0 c).arrAt 4 cfg0.N = Garr m c :=
  (dats m 0 c).arrAt_eq_of_cover 4 (Garr m c) (fun t _ => flushed4_eq m c t) cover4

/-- The reshape after the region reads the array's rows (q, r) as row 2q + r. -/
theorem tail_v4 (c : Dev nD) :
    Pipeline.afterTail₀ cfgs (dats m) 0 (V0 m) [hostOps1] c main_v4
      = shapeCast S16x4096 (Garr m c) shapeCasts_S8x2x4096_S16x4096 := by
  unfold Pipeline.afterTail₀
  show StableHlo.after hostOps1 _ (Proc.devRef .tc main_v4) = _
  after_results
  exact congrArg (fun A => shapeCast S16x4096 A shapeCasts_S8x2x4096_S16x4096)
    ((Pipeline.withArrays_arr spec0 launch0.win.arr_inj c _ _ 4).trans (final4 m c))

/-- Reshaped, the array is the whole result in the split spelling; with every entry of the arguments real, `G`. -/
theorem result_eq (c : Dev nD)
    (h0 : ∀ i, ∃ r : ℝ, m ((c : Thread nD τ).loc main_arg0) i = (r : EReal))
    (h1 : ∀ i, ∃ r : ℝ, m ((c : Thread nD τ).loc main_arg1) i = (r : EReal))
    (h2 : ∀ i, ∃ r : ℝ, m ((c : Thread nD τ).loc main_arg2) i = (r : EReal))
    (h3 : ∀ i, ∃ r : ℝ, m ((c : Thread nD τ).loc main_arg3) i = (r : EReal)) :
    shapeCast S16x4096 (Garr m c) shapeCasts_S8x2x4096_S16x4096
      = G (m ((c : Thread nD τ).loc main_arg0)) (m ((c : Thread nD τ).loc main_arg1))
          (m ((c : Thread nD τ).loc main_arg2)) (m ((c : Thread nD τ).loc main_arg3)) := by
  funext i
  obtain ⟨bb, j, rfl⟩ : ∃ (bb : Fin 16) (j : Fin 4096), i = ix2 bb j := ⟨i 0, i 1, eq_ix2 i⟩
  refine (shapeCast_apply (Garr m c) shapeCasts_S8x2x4096_S16x4096 (ix2 bb j)
    (ix3 (⟨bb.val / 2, by have := bb.isLt; omega⟩ : Fin 8) (⟨bb.val % 2, by omega⟩ : Fin 2) j) (by
      rw [Shape.rowMajor_val_three, Shape.rowMajor_val_two]
      show (bb.val / 2 * 2 + bb.val % 2) * 4096 + j.val = bb.val * 4096 + j.val
      omega)).trans ?_
  refine (Garr_at m c bb j _ (by show 2 * (bb.val / 2) + bb.val % 2 = bb.val; omega) rfl).trans ?_
  unfold G
  show _ = GbR (Xof _ bb) _ _ _ j
  exact congrFun (GbK_eq_GbR _ _ _ _ (fun p ch => h0 _) (fun ch k => h1 _) (fun k => h2 _) (fun d k => h3 _)) j

/-- The kernel's run: the result is `G` of the arguments, which are unchanged. -/
theorem run
    (hfin : ∀ c : Dev nD, (∀ i, ∃ r : ℝ, m ((c : Thread nD τ).loc main_arg0) i = (r : EReal))
      ∧ (∀ i, ∃ r : ℝ, m ((c : Thread nD τ).loc main_arg1) i = (r : EReal))
      ∧ (∀ i, ∃ r : ℝ, m ((c : Thread nD τ).loc main_arg2) i = (r : EReal))
      ∧ (∀ i, ∃ r : ℝ, m ((c : Thread nD τ).loc main_arg3) i = (r : EReal))) :
    θ_run defs (onTc (τ := τ) (main (F := Ideal))) ⟨m, fun _ => 0, ρ⟩ fun r => ∀ c : Dev nD,
      r.2.mem ((c : Thread nD τ).loc main_v4)
          = G (m ((c : Thread nD τ).loc main_arg0)) (m ((c : Thread nD τ).loc main_arg1))
              (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨((h c).2 main_v4 (Pipeline.mem_restRefs_of main_v4 (by decide) (by decide))).trans
        ((tail_v4 m c).trans (result_eq m c (hfin c).1 (hfin c).2.1 (hfin c).2.2.1 (hfin c).2.2.2)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end

end Cert.KernelIdeal.KVal

end
-- ==== Proof.RefValue.lean ====
/-
  The reference's result, read one operation at a time, is the direct spelling of the layer.

  Row bb of the reference's [16, 4096] result depends on batch element bb alone. Reading the printed operations at
  an index: the contraction over the 512 channels plus the bias is the logit of pixel (h, w) = p; the reduce-maximum
  over the last axis, joined once more with −∞, is the row's maximum; the exponentials, their sum from 0, and the
  quotient are the soft assignment as a quotient; the product with the broadcast logits-plus-centres summed over
  the two image axes is the direct aggregate, the pair (h, w) running over the same 4096 pixels as the flat position
  p = 64·h + w; the transposition puts the cluster first; the two normalisations follow with the same floor.
-/
import proofs.«411206_j48189533061458_3_alg».proof.Proof.Gen.ReferenceIdeal.Read
import proofs.«411206_j48189533061458_3_alg».proof.Proof.LibKeepdims
import proofs.«411206_j48189533061458_3_alg».proof.Proof.Spec

noncomputable section

open scoped BigOperators

namespace Cert.ReferenceIdeal.RefValue

open Cert.ReferenceIdeal Cert.ReferenceIdeal.Gen Cert.ReferenceIdeal.Read Cert.NetVlad Cert.LibKeepdims
open Idealize.ShloMosaic Idealize.ShloMosaic.ValueIdx

/-! ## Pixels: the pair (h, w) and the flat position 64·h + w -/

/-- The flat position of pixel (h, w). -/
def pix (h w : Fin 64) : Fin 4096 := ⟨h.val * 64 + w.val, by have := h.isLt; have := w.isLt; omega⟩

theorem hi_pix (h w : Fin 64) : hi (pix h w) = h :=
  Fin.ext (by show (h.val * 64 + w.val) / 64 = h.val; have := w.isLt; omega)
theorem lo_pix (h w : Fin 64) : lo (pix h w) = w :=
  Fin.ext (by show (h.val * 64 + w.val) % 64 = w.val; have := w.isLt; omega)
theorem pix_hi_lo (p : Fin 4096) : pix (hi p) (lo p) = p :=
  Fin.ext (by show p.val / 64 * 64 + p.val % 64 = p.val; omega)

/-- A sum over the two image axes, at a kept index (bb, d, k), is the sum over the 4096 pixels. -/
theorem sum_pixels (h : S16x64x64x64x64.ReducesTo [1, 2] S16x64x64) (y : S16x64x64x64x64.Idx → EReal)
    (bb : Fin 16) (d k : Fin 64) :
    ∑ i ∈ Finset.univ.filter (fun i => h.drop i = ix3 bb d k), y i
      = ∑ p : Fin 4096, y (ix5 bb (hi p) (lo p) d k) := by
  have key : ∀ i ∈ Finset.univ.filter (fun i => h.drop i = ix3 bb d k),
      ix5 bb (hi (pix ⟨(i 1).val, (i 1).isLt⟩ ⟨(i 2).val, (i 2).isLt⟩)) (lo (pix ⟨(i 1).val, (i 1).isLt⟩ ⟨(i 2).val, (i 2).isLt⟩)) d k = i := by
    intro i hi'
    have hj := (Finset.mem_filter.1 hi').2
    have h0 : (i 0).val = bb.val := (h.drop_apply_val_of_eq i 0 0).symm.trans (congrArg Fin.val (congrFun hj 0))
    have h3 : (i 3).val = d.val := (h.drop_apply_val_of_eq i 1 3).symm.trans (congrArg Fin.val (congrFun hj 1))
    have h4 : (i 4).val = k.val := (h.drop_apply_val_of_eq i 2 4).symm.trans (congrArg Fin.val (congrFun hj 2))
    funext c
    apply Fin.ext
    match c with
    | ⟨0, _⟩ => exact h0.symm
    | ⟨1, _⟩ => exact congrArg Fin.val (hi_pix _ _)
    | ⟨2, _⟩ => exact congrArg Fin.val (lo_pix _ _)
    | ⟨3, _⟩ => exact h3.symm
    | ⟨4, _⟩ => exact h4.symm
  refine Finset.sum_nbij' (fun i => pix ⟨(i 1).val, (i 1).isLt⟩ ⟨(i 2).val, (i 2).isLt⟩) (fun p => ix5 bb (hi p) (lo p) d k) ?_ ?_ ?_ ?_ ?_
  · intro i _; exact Finset.mem_univ _
  · intro p _
    refine Finset.mem_filter.2 ⟨Finset.mem_univ _, funext fun c => Fin.ext ?_⟩
    match c with
    | ⟨0, _⟩ => exact h.drop_apply_val_of_eq _ 0 0
    | ⟨1, _⟩ => exact h.drop_apply_val_of_eq _ 1 3
    | ⟨2, _⟩ => exact h.drop_apply_val_of_eq _ 2 4
  · exact key
  · intro p _; exact pix_hi_lo p
  · intro i hi'; exact congrArg y (key i hi').symm

/-! ## One batch row of the reference, stage by stage -/

section
variable (x : (⟨S16x64x64x512, .f32⟩ : BufTy).Contents (Elt Ideal)) (w : (⟨S512x64, .f32⟩ : BufTy).Contents (Elt Ideal))
  (b : (⟨S64, .f32⟩ : BufTy).Contents (Elt Ideal)) (C : (⟨S1x1x1x64x64, .f32⟩ : BufTy).Contents (Elt Ideal)) (bb : Fin 16)

/-- The logits of batch element bb. -/
abbrev L : Fin 4096 → Fin 64 → EReal := logit (Xof x bb) (Wof w) (bof b)

theorem v3_at (p : Fin 4096) (k : Fin 64) :
    val_main_v3 (F := Ideal) x w b (ix4 bb (hi p) (lo p) k) = L x w b bb p k := by
  rw [val_main_v3_apply, val_main_v0_apply, val_main_v2_apply, val_main_v1_apply]
  have e1 : ∀ c : Fin 512, lidx_main_v0 (ix4 bb (hi p) (lo p) k) c = ix4 bb (hi p) (lo p) c := fun c => funext fun a => by
    match a with | ⟨0, _⟩ => rfl | ⟨1, _⟩ => rfl | ⟨2, _⟩ => rfl | ⟨3, _⟩ => rfl
  have e2 : ∀ c : Fin 512, ridx_main_v0 (ix4 bb (hi p) (lo p) k) c = ix2 c k := fun c => funext fun a => by
    match a with | ⟨0, _⟩ => rfl | ⟨1, _⟩ => rfl
  have e3 : idx_main_v1 (idx_main_v2 (ix4 bb (hi p) (lo p) k)) = ix1 k := funext fun a => by
    match a with | ⟨0, _⟩ => rfl
  rw [e3, Finset.sum_congr rfl fun c _ => show x (lidx_main_v0 (ix4 bb (hi p) (lo p) k) c) * w (ridx_main_v0 (ix4 bb (hi p) (lo p) k) c)
      = x (ix4 bb (hi p) (lo p) c) * w (ix2 c k) by rw [e1, e2]]
  rfl

theorem lift_last (h : S16x64x64x64.Reduces [3] S16x64x64) (hh ww : Fin 64) (k : Fin 64) :
    h.lift (ix3 bb hh ww) k = ix4 bb hh ww k :=
  funext fun c => Fin.ext (match c with | ⟨0, _⟩ => rfl | ⟨1, _⟩ => rfl | ⟨2, _⟩ => rfl | ⟨3, _⟩ => rfl)

theorem v6_at (p : Fin 4096) :
    val_main_v6 (F := Ideal) x w b (ix3 bb (hi p) (lo p)) = rowMax (L x w b bb) p := by
  rw [val_main_v6_apply, val_main_v5_apply, val_main_cst_0_apply]
  unfold val_main_v4
  rw [Host.reduce_eq_fold_single FloatOps.maximumf _ _ reducesTo_S16x64x64x64_S16x64x64_d3 (by decide : S16x64x64x64.Reduces [3] S16x64x64) h_S_]
  show max (Ideal.ofBits .f32 0xFF800000#32)
      ((Finset.univ : Finset (Fin 64)).fold max (Ideal.ofBits .f32 0xFF800000#32)
        (val_main_v3 (F := Ideal) x w b ∘ (by decide : S16x64x64x64.Reduces [3] S16x64x64).lift (ix3 bb (hi p) (lo p))))
    = (Finset.univ : Finset (Fin 64)).fold max ⊥ (L x w b bb p)
  rw [ofBits_neg_inf, max_eq_right bot_le]
  exact congrArg (fun g : Fin 64 → EReal => (Finset.univ : Finset (Fin 64)).fold max ⊥ g)
    (funext fun k => (congrArg (val_main_v3 (F := Ideal) x w b) (lift_last bb _ (hi p) (lo p) k)).trans (v3_at x w b bb p k))

theorem v10_at (p : Fin 4096) (k : Fin 64) :
    val_main_v10 (F := Ideal) x w b (ix4 bb (hi p) (lo p) k) = ex (L x w b bb) p k := by
  rw [val_main_v10_apply, val_main_v9_apply, v3_at, val_main_v8_apply, val_main_v7_apply]
  have e : idx_main_v7 (idx_main_v8 (ix4 bb (hi p) (lo p) k)) = ix3 bb (hi p) (lo p) := funext fun a => by
    match a with | ⟨0, _⟩ => rfl | ⟨1, _⟩ => rfl | ⟨2, _⟩ => rfl
  rw [e, v6_at]
  rfl

theorem v11_at (p : Fin 4096) :
    val_main_v11 (F := Ideal) x w b (ix3 bb (hi p) (lo p)) = esum (L x w b bb) p := by
  rw [val_main_v11_apply, val_main_cst_1_apply]
  have e : ∀ k : Fin 64, idx_main_v11 (ix3 bb (hi p) (lo p)) k = ix4 bb (hi p) (lo p) k := fun k => funext fun a => by
    match a with | ⟨0, _⟩ => rfl | ⟨1, _⟩ => rfl | ⟨2, _⟩ => rfl | ⟨3, _⟩ => rfl
  show Ideal.ofBits .f32 0x00000000#32 + _ = _
  rw [Ideal.ofBits_zero_f32, zero_add]
  exact Finset.sum_congr rfl fun k _ => by rw [e, v10_at]

theorem v14_at (p : Fin 4096) (k : Fin 64) :
    val_main_v14 (F := Ideal) x w b (ix4 bb (hi p) (lo p) k) = softR (L x w b bb) p k := by
  rw [val_main_v14_apply, v10_at, val_main_v13_apply, val_main_v12_apply]
  have e : idx_main_v12 (idx_main_v13 (ix4 bb (hi p) (lo p) k)) = ix3 bb (hi p) (lo p) := funext fun a => by
    match a with | ⟨0, _⟩ => rfl | ⟨1, _⟩ => rfl | ⟨2, _⟩ => rfl
  rw [e, v11_at]
  rfl

theorem v21_at (p : Fin 4096) (d k : Fin 64) :
    val_main_v21 (F := Ideal) x w b C (ix5 bb (hi p) (lo p) d k) = softR (L x w b bb) p k * (L x w b bb p d + Cof C d k) := by
  rw [val_main_v21_apply, val_main_v20_apply, val_main_v15_apply, val_main_v19_apply, val_main_v17_apply, val_main_v16_apply,
    val_main_v18_apply]
  have e1 : idx_main_v15 (idx_main_v20 (ix5 bb (hi p) (lo p) d k)) = ix4 bb (hi p) (lo p) k := funext fun a => by
    match a with | ⟨0, _⟩ => rfl | ⟨1, _⟩ => rfl | ⟨2, _⟩ => rfl | ⟨3, _⟩ => rfl
  have e2 : idx_main_v16 (idx_main_v17 (ix5 bb (hi p) (lo p) d k)) = ix4 bb (hi p) (lo p) d := funext fun a => by
    match a with | ⟨0, _⟩ => rfl | ⟨1, _⟩ => rfl | ⟨2, _⟩ => rfl | ⟨3, _⟩ => rfl
  have e3 : idx_main_v18 (ix5 bb (hi p) (lo p) d k) = ix5 (0 : Fin 1) (0 : Fin 1) (0 : Fin 1) d k := funext fun a => by
    match a with | ⟨0, _⟩ => rfl | ⟨1, _⟩ => rfl | ⟨2, _⟩ => rfl | ⟨3, _⟩ => rfl | ⟨4, _⟩ => rfl
  rw [e1, e2, e3, v14_at, v3_at]
  rfl

theorem v22_at (d k : Fin 64) :
    val_main_v22 (F := Ideal) x w b C (ix3 bb d k) = aggR (L x w b bb) (Cof C) k d := by
  unfold val_main_v22 Host.reduceAdd
  rw [Ideal.hostReduceAdd_def]
  unfold Ideal.hostReduceAdd aggR
  rw [val_main_cst_2_apply]
  show Ideal.ofBits .f32 0x00000000#32 + _ = _
  rw [Ideal.ofBits_zero_f32, zero_add, sum_pixels]
  exact Finset.sum_congr rfl fun p _ => v21_at x w b C bb p d k

theorem v23_at (k d : Fin 64) :
    val_main_v23 (F := Ideal) x w b C (ix3 bb k d) = aggR (L x w b bb) (Cof C) k d := by
  rw [val_main_v23_apply]
  have e : idx_main_v23 (ix3 bb k d) = ix3 bb d k := funext fun a => by
    match a with | ⟨0, _⟩ => rfl | ⟨1, _⟩ => rfl | ⟨2, _⟩ => rfl
  rw [e, v22_at]

theorem v31_at (k d : Fin 64) :
    val_main_v31 (F := Ideal) x w b C (ix3 bb k d) = rowNormed (aggR (L x w b bb) (Cof C)) k d := by
  rw [val_main_v31_apply, v23_at, val_main_v30_apply, val_main_v29_apply, val_main_v28_apply, val_main_v26_apply,
    val_main_v25_apply, val_main_v27_apply, val_main_cst_4_apply, val_main_cst_3_apply]
  have e : idx_main_v26 (idx_main_v30 (ix3 bb k d)) = ix2 bb k := funext fun a => by
    match a with | ⟨0, _⟩ => rfl | ⟨1, _⟩ => rfl
  have e' : ∀ d' : Fin 64, idx_main_v25 (ix2 bb k) d' = ix3 bb k d' := fun d' => funext fun a => by
    match a with | ⟨0, _⟩ => rfl | ⟨1, _⟩ => rfl | ⟨2, _⟩ => rfl
  rw [e]
  unfold rowNormed
  show aggR (L x w b bb) (Cof C) k d * Ideal.rsqrt (max (Ideal.ofBits .f32 0x00000000#32 + ∑ d' : Fin 64, val_main_v24 (F := Ideal) x w b C (idx_main_v25 (ix2 bb k) d')) eps) = _
  rw [Ideal.ofBits_zero_f32, zero_add]
  refine congrArg (fun t => aggR (L x w b bb) (Cof C) k d * Ideal.rsqrt (max t eps)) ?_
  exact Finset.sum_congr rfl fun d' _ => by rw [e', val_main_v24_apply, v23_at]; rfl

theorem v32_at (j : Fin 4096) :
    val_main_v32 (F := Ideal) x w b C (ix2 bb j) = flat (aggR (L x w b bb) (Cof C)) j := by
  rw [val_main_v32_apply]
  have e : idx_main_v32 (ix2 bb j) = ix3 bb (hi j) (lo j) := funext fun a => Fin.ext (by
    have := bb.isLt; have := j.isLt
    match a with
    | ⟨0, _⟩ => show (bb.val * 4096 + j.val) / 4096 = bb.val; omega
    | ⟨1, _⟩ => show (bb.val * 4096 + j.val) / 64 % 64 = j.val / 64; omega
    | ⟨2, _⟩ => show (bb.val * 4096 + j.val) % 64 = j.val % 64; omega)
  rw [e, v31_at]
  rfl

end

/-- The reference's result at row bb and flat position j is batch element bb's layer in the direct spelling. -/
theorem ref_apply (x : (⟨S16x64x64x512, .f32⟩ : BufTy).Contents (Elt Ideal)) (w : (⟨S512x64, .f32⟩ : BufTy).Contents (Elt Ideal))
    (b : (⟨S64, .f32⟩ : BufTy).Contents (Elt Ideal)) (C : (⟨S1x1x1x64x64, .f32⟩ : BufTy).Contents (Elt Ideal))
    (bb : Fin 16) (j : Fin 4096) :
    val_main_v40 (F := Ideal) x w b C (ix2 bb j) = GbR (Xof x bb) (Wof w) (bof b) (Cof C) j := by
  rw [val_main_v40_apply, v32_at, val_main_v39_apply, val_main_v38_apply, val_main_v37_apply, val_main_v35_apply,
    val_main_v34_apply, val_main_v36_apply, val_main_cst_6_apply, val_main_cst_5_apply]
  have e : ∀ j' : Fin 4096, idx_main_v34 (idx_main_v35 (idx_main_v39 (ix2 bb j))) j' = ix2 bb j' := fun j' => funext fun a => by
    match a with | ⟨0, _⟩ => rfl | ⟨1, _⟩ => rfl
  unfold GbR out
  show flat (aggR (L x w b bb) (Cof C)) j * Ideal.rsqrt (max (Ideal.ofBits .f32 0x00000000#32
      + ∑ j' : Fin 4096, val_main_v33 (F := Ideal) x w b C (idx_main_v34 (idx_main_v35 (idx_main_v39 (ix2 bb j))) j')) eps) = _
  rw [Ideal.ofBits_zero_f32, zero_add]
  refine congrArg (fun t => flat (aggR (L x w b bb) (Cof C)) j * Ideal.rsqrt (max t eps)) ?_
  exact Finset.sum_congr rfl fun j' _ => by rw [e, val_main_v33_apply, v32_at]; rfl

/-- The reference's whole result is `G` of its four arguments. -/
theorem ref_eq_G (x : (⟨S16x64x64x512, .f32⟩ : BufTy).Contents (Elt Ideal)) (w : (⟨S512x64, .f32⟩ : BufTy).Contents (Elt Ideal))
    (b : (⟨S64, .f32⟩ : BufTy).Contents (Elt Ideal)) (C : (⟨S1x1x1x64x64, .f32⟩ : BufTy).Contents (Elt Ideal)) :
    val_main_v40 (F := Ideal) x w b C = G x w b C := by
  funext i
  obtain ⟨bb, j, rfl⟩ : ∃ (bb : Fin 16) (j : Fin 4096), i = ix2 bb j := ⟨i 0, i 1, eq_ix2 i⟩
  exact ref_apply x w b C bb j

end Cert.ReferenceIdeal.RefValue

end
-- ==== Proof.Finite.lean ====
/-
  The precondition says every entry of the four arguments is a real number.

  The printed predicate is the conjunction of four tests, one per argument: every entry's absolute value is below +∞.
  On the extended reals |x| = max x (−x) is +∞ exactly at the two infinities, so an entry passing the test is a real.
  A conjunction of one-bit words is 1 only if each is, and an all-reduce by "and" that is 1 had a 1 at every entry.
-/
import proofs.«411206_j48189533061458_3_alg».proof.Proof.Gen.Pre_finite_inputs
import Idealize.ShloMosaic.Lib.ReduceAll
import Idealize.ShloMosaic.Lib.ValueIdx
import Idealize.ShloMosaic.PureOps.Ideal.Laws

noncomputable section

namespace Cert.FiniteInputs

open Cert.Pre_finite_inputs Idealize.ShloMosaic

instance : Subsingleton S_.Idx := ⟨fun a b => funext fun d => d.elim0⟩

/-- The word of f32's +∞ denotes +∞. -/
theorem ofBits_inf : Ideal.ofBits .f32 0x7F800000#32 = (⊤ : EReal) := by simp [Ideal.ofBits, Ideal.ieee]

/-- An extended real whose absolute value compares below +∞ is a real number. -/
theorem real_of_abs_lt (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  have h1 : Ideal.cmp .olt (max x (-x)) (⊤ : EReal) = 1#1 := by rw [← ofBits_inf]; exact h
  have hb : ∀ b : Bool, BitVec.ofBool b = 1#1 → b = true := by
    intro b
    cases b <;> decide
  have hlt : max x (-x) < (⊤ : EReal) := by
    unfold Ideal.cmp at h1
    exact of_decide_eq_true (hb _ h1)
  induction x using EReal.rec with
  | bot => simp at hlt
  | top => simp at hlt
  | coe r => exact ⟨r, rfl⟩

/-- The printed precondition, all ones, makes every entry of every argument a real number. -/
theorem all_real [Facts] (x0 : FVec Ideal S16x64x64x512 .f32) (x1 : FVec Ideal S512x64 .f32) (x2 : FVec Ideal S64 .f32)
    (x3 : FVec Ideal S1x1x1x64x64 .f32) (h : fn (F := Ideal) x0 x1 x2 x3 = fun _ => 1#1) :
    (∀ i, ∃ r : ℝ, x0 i = (r : EReal)) ∧ (∀ i, ∃ r : ℝ, x1 i = (r : EReal))
      ∧ (∀ i, ∃ r : ℝ, x2 i = (r : EReal)) ∧ (∀ i, ∃ r : ℝ, x3 i = (r : EReal)) := by
  have h' := congrFun h ValueIdx.ix0
  dsimp only [fn, fn_part1] at h'
  obtain ⟨h012, h3⟩ := IntOp.andi_eq_one.mp h'
  obtain ⟨h01, h2⟩ := IntOp.andi_eq_one.mp h012
  obtain ⟨h0, h1⟩ := IntOp.andi_eq_one.mp h01
  exact ⟨fun i => real_of_abs_lt _ (Host.reduce_andi_all _ _ _ _ _ h0 i),
    fun i => real_of_abs_lt _ (Host.reduce_andi_all _ _ _ _ _ h1 i),
    fun i => real_of_abs_lt _ (Host.reduce_andi_all _ _ _ _ _ h2 i),
    fun i => real_of_abs_lt _ (Host.reduce_andi_all _ _ _ _ _ h3 i)⟩

end Cert.FiniteInputs

end
-- ==== Proof.lean ====
/-
  A NetVLAD layer: for each of 16 batch elements, 4096 pixels of 512 channels are projected to 64 logits, softmaxed
  over the clusters, and aggregated against the logits plus a 64 × 64 table of centres, v k d = Σ_p s p k · (f p d + C d k);
  each row of v is scaled to unit length, the square is laid out flat and scaled to unit length again, both times
  with the floor ε under the sum of squares.

  The kernel computes the same numbers two batch elements per grid point, with the soft assignment as a product with
  the reciprocal of the row's sum and the aggregate split as sᵀ f + Cᵀ · (sᵀ 1) in the transposed layout; the
  reference divides by the row's sum and sums s · (f + C) over the image directly. On the extended reals the split
  needs distributivity, which holds because the precondition makes every entry of the inputs a real number: then
  every logit is real, every row's sum of exponentials is a positive real, and the two spellings agree.

  Both programs' results are the one function `G` of the four arguments (Proof/Spec.lean): the kernel's by reading
  what each grid point writes back and the reshape after the region (Proof/KernelValue.lean over Proof/PayStages.lean),
  the reference's by reading its operations at an index (Proof/RefValue.lean); Proof/Algebra.lean joins the spellings
  and Proof/Finite.lean reads the precondition. The idealization rewrote nothing, so `preserves` is trivial.
-/
import proofs.«411206_j48189533061458_3_alg».proof.Defs
import proofs.«411206_j48189533061458_3_alg».proof.Proof.Gen.Kernel
import proofs.«411206_j48189533061458_3_alg».proof.Proof.Gen.Kernel.Skeleton
import proofs.«411206_j48189533061458_3_alg».proof.Proof.Gen.Kernel.Launch
import proofs.«411206_j48189533061458_3_alg».proof.Proof.Gen.Kernel.Points
import proofs.«411206_j48189533061458_3_alg».proof.Proof.Gen.Kernel.Frame
import proofs.«411206_j48189533061458_3_alg».proof.Proof.Gen.KernelIdeal
import proofs.«411206_j48189533061458_3_alg».proof.Proof.Gen.KernelIdeal.Skeleton
import proofs.«411206_j48189533061458_3_alg».proof.Proof.Gen.KernelIdeal.Launch
import proofs.«411206_j48189533061458_3_alg».proof.Proof.Gen.KernelIdeal.Points
import proofs.«411206_j48189533061458_3_alg».proof.Proof.Gen.KernelIdeal.Frame
import proofs.«411206_j48189533061458_3_alg».proof.Proof.Gen.ReferenceIdeal
import proofs.«411206_j48189533061458_3_alg».proof.Proof.Gen.Pre_finite_inputs
import proofs.«411206_j48189533061458_3_alg».proof.Proof.Gen.ReferenceIdeal.Read
import proofs.«411206_j48189533061458_3_alg».proof.Proof.KernelValue
import proofs.«411206_j48189533061458_3_alg».proof.Proof.RefValue
import proofs.«411206_j48189533061458_3_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, both programs end with `G` of the arguments as their result. -/
theorem algebraic : Cert.algebraic_KernelIdeal_ReferenceIdeal := by
  intro m ρ m' ρ' hpre hagree
  have hfin := fun c : Dev Cert.KernelIdeal.nD => Cert.FiniteInputs.all_real _ _ _ _ (hpre c)
  refine ⟨fun c => Cert.NetVlad.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.KVal.run m ρ hfin, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v40_eq, Cert.ReferenceIdeal.RefValue.ref_eq_G,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
